-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x10000 : Shape := ⟨2, ![4096, 10000]⟩
abbrev S4096x128 : Shape := ⟨2, ![4096, 128]⟩
abbrev S_ : Shape := ⟨0, ![]⟩

class Facts : Prop where
  bcast_S_S4096x10000 : S_.BroadcastsInDim S4096x10000 (![] : Fin 0 → Fin S4096x10000.rank)
  reducesTo_S4096x10000_S_d0_1 : S4096x10000.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_

variable [Facts]

def fn {F : FTy → Type} [FloatOps F] (main_arg0 : FVec F S4096x10000 .f32) (main_arg1 : IVec S4096x128 32) : IVec S_ 1 :=
  let main_v0 : FVec F S4096x10000 .f32 := Host.absf main_arg0
  let main_cst : FVec F S_ .f32 := constant S_ .f32 0x7F800000#32
  let main_v1 : FVec F S4096x10000 .f32 := broadcastInDim S4096x10000 ![] bcast_S_S4096x10000 main_cst
  let main_v2 : IVec S4096x10000 1 := cmpf .olt main_v0 main_v1
  let main_c : IVec S_ 1 := constantI S_ 1 1#1
  let main_v3 : IVec S_ 1 := (fun x v => Host.reduce IntOp.andi x v reducesTo_S4096x10000_S_d0_1 h_S_) main_v2 main_c
  let main_c_0 : IVec S_ 32 := constantI S_ 32 0#32
  let main_v4 : IVec S4096x128 32 := broadcastInDim S4096x128 ![] bcast_S_S4096x128 main_c_0
  let main_v5 : IVec S4096x128 1 := cmpi .sge main_arg1 main_v4
  let main_c_1 : IVec S_ 1 := constantI S_ 1 1#1
  let main_v6 : IVec S_ 1 := (fun x v => Host.reduce IntOp.andi x v reducesTo_S4096x128_S_d0_1 h_S_) main_v5 main_c_1
  let main_v7 : IVec S_ 1 := andi main_v3 main_v6
  main_v7
-- ==== Kernel.lean ====
abbrev S4096x10000 : Shape := ⟨2, ![4096, 10000]⟩
abbrev S4096x128 : Shape := ⟨2, ![4096, 128]⟩
abbrev S256x10000 : Shape := ⟨2, ![256, 10000]⟩
abbrev S256x128 : Shape := ⟨2, ![256, 128]⟩
abbrev S256x64 : Shape := ⟨2, ![256, 64]⟩
abbrev S256x32 : Shape := ⟨2, ![256, 32]⟩
abbrev S256x16 : Shape := ⟨2, ![256, 16]⟩
abbrev S256x8 : Shape := ⟨2, ![256, 8]⟩
abbrev S256x4 : Shape := ⟨2, ![256, 4]⟩
abbrev S256x2 : Shape := ⟨2, ![256, 2]⟩
abbrev S256x1 : Shape := ⟨2, ![256, 1]⟩

abbrev nBuf : Space → Nat
  | .hbm => 3
  | .vmem => 6
  | .smem => 0
  | _ => 0

abbrev bufTy : (tb : Table) → Fin (tcTables nBuf tb) → BufTy
  | .hbm, ⟨0, _⟩ => ⟨S4096x10000, .f32⟩
  | .hbm, ⟨1, _⟩ => ⟨S4096x128, .i32⟩
  | .hbm, ⟨2, _⟩ => ⟨S4096x10000, .f32⟩
  | .local _ .vmem, ⟨0, _⟩ => ⟨S256x10000, .f32⟩
  | .local _ .vmem, ⟨1, _⟩ => ⟨S256x10000, .f32⟩
  | .local _ .vmem, ⟨2, _⟩ => ⟨S256x128, .i32⟩
  | .local _ .vmem, ⟨3, _⟩ => ⟨S256x128, .i32⟩
  | .local _ .vmem, ⟨4, _⟩ => ⟨S256x10000, .f32⟩
  | .local _ .vmem, ⟨5, _⟩ => ⟨S256x10000, .f32⟩
  | _, _ => ⟨S4096x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S256x128_S256x128_0_0 : ∀ a, (![0, 0] : Fin 2 → Nat) a + S256x128.size a ≤ S256x128.size a
  h_S256x128 : 0 < S256x128.numel
  inb_S256x10000_S256x10000_0_0 : ∀ a, (![0, 0] : Fin 2 → Nat) a + S256x10000.size a ≤ S256x10000.size a
  h_S256x10000 : 0 < S256x10000.numel
  slices_S256x128_o0_0_S256x64 : S256x128.Slices ![0, 0] S256x64
  slices_S256x128_o0_64_S256x64 : S256x128.Slices ![0, 64] S256x64
  slices_S256x64_o0_0_S256x32 : S256x64.Slices ![0, 0] S256x32
  slices_S256x64_o0_32_S256x32 : S256x64.Slices ![0, 32] S256x32
  slices_S256x32_o0_0_S256x16 : S256x32.Slices ![0, 0] S256x16
  slices_S256x32_o0_16_S256x16 : S256x32.Slices ![0, 16] S256x16
  slices_S256x16_o0_0_S256x8 : S256x16.Slices ![0, 0] S256x8
  slices_S256x16_o0_8_S256x8 : S256x16.Slices ![0, 8] S256x8
  slices_S256x8_o0_0_S256x4 : S256x8.Slices ![0, 0] S256x4
  slices_S256x8_o0_4_S256x4 : S256x8.Slices ![0, 4] S256x4
  slices_S256x4_o0_0_S256x2 : S256x4.Slices ![0, 0] S256x2
  slices_S256x4_o0_2_S256x2 : S256x4.Slices ![0, 2] S256x2
  slices_S256x2_o0_0_S256x1 : S256x2.Slices ![0, 0] S256x1
  slices_S256x2_o0_1_S256x1 : S256x2.Slices ![0, 1] S256x1
  iota_S256x128_d1_w32 : S256x128.Iotas .tc 32 [1]
  shapeCasts_S256x1_S256x1 : S256x1.ShapeCasts S256x1
  broadcasts_S256x1_S256x128 : S256x1.Broadcasts S256x128
  slices_S256x10000_o0_0_S256x128 : S256x10000.Slices ![0, 0] S256x128
  natLt_1_32 : 1 < 32
  inb_S256x10000_S256x128_0_0 : ∀ a, (![0, 0] : Fin 2 → Nat) a + S256x128.size a ≤ S256x10000.size a
  slices_S256x10000_o0_128_S256x128 : S256x10000.Slices ![0, 128] S256x128
  inb_S256x10000_S256x128_0_128 : ∀ a, (![0, 128] : Fin 2 → Nat) a + S256x128.size a ≤ S256x10000.size a
  slices_S256x10000_o0_256_S256x128 : S256x10000.Slices ![0, 256] S256x128
  inb_S256x10000_S256x128_0_256 : ∀ a, (![0, 256] : Fin 2 → Nat) a + S256x128.size a ≤ S256x10000.size a
  slices_S256x10000_o0_384_S256x128 : S256x10000.Slices ![0, 384] S256x128
  inb_S256x10000_S256x128_0_384 : ∀ a, (![0, 384] : Fin 2 → Nat) a + S256x128.size a ≤ S256x10000.size a
  slices_S256x10000_o0_512_S256x128 : S256x10000.Slices ![0, 512] S256x128
  inb_S256x10000_S256x128_0_512 : ∀ a, (![0, 512] : Fin 2 → Nat) a + S256x128.size a ≤ S256x10000.size a
  slices_S256x10000_o0_640_S256x128 : S256x10000.Slices ![0, 640] S256x128
  inb_S256x10000_S256x128_0_640 : ∀ a, (![0, 640] : Fin 2 → Nat) a + S256x128.size a ≤ S256x10000.size a
  slices_S256x10000_o0_768_S256x128 : S256x10000.Slices ![0, 768] S256x128
  inb_S256x10000_S256x128_0_768 : ∀ a, (![0, 768] : Fin 2 → Nat) a + S256x128.size a ≤ S256x10000.size a
  slices_S256x10000_o0_896_S256x128 : S256x10000.Slices ![0, 896] S256x128
  inb_S256x10000_S256x128_0_896 : ∀ a, (![0, 896] : Fin 2 → Nat) a + S256x128.size a ≤ S256x10000.size a
  slices_S256x10000_o0_1024_S256x128 : S256x10000.Slices ![0, 1024] S256x128
  inb_S256x10000_S256x128_0_1024 : ∀ a, (![0, 1024] : Fin 2 → Nat) a + S256x128.size a ≤ S256x10000.size a
  slices_S256x10000_o0_1152_S256x128 : S256x10000.Slices ![0, 1152] S256x128
  inb_S256x10000_S256x128_0_1152 : ∀ a, (![0, 1152] : Fin 2 → Nat) a + S256x128.size a ≤ S256x10000.size a
  slices_S256x10000_o0_1280_S256x128 : S256x10000.Slices ![0, 1280] S256x128
  inb_S256x10000_S256x128_0_1280 : ∀ a, (![0, 1280] : Fin 2 → Nat) a + S256x128.size a ≤ S256x10000.size a
  slices_S256x10000_o0_1408_S256x128 : S256x10000.Slices ![0, 1408] S256x128
  inb_S256x10000_S256x128_0_1408 : ∀ a, (![0, 1408] : Fin 2 → Nat) a + S256x128.size a ≤ S256x10000.size a
  slices_S256x10000_o0_1536_S256x128 : S256x10000.Slices ![0, 1536] S256x128
  inb_S256x10000_S256x128_0_1536 : ∀ a, (![0, 1536] : Fin 2 → Nat) a + S256x128.size a ≤ S256x10000.size a
  slices_S256x10000_o0_1664_S256x128 : S256x10000.Slices ![0, 1664] S256x128
  inb_S256x10000_S256x128_0_1664 : ∀ a, (![0, 1664] : Fin 2 → Nat) a + S256x128.size a ≤ S256x10000.size a
  slices_S256x10000_o0_1792_S256x128 : S256x10000.Slices ![0, 1792] S256x128
  inb_S256x10000_S256x128_0_1792 : ∀ a, (![0, 1792] : Fin 2 → Nat) a + S256x128.size a ≤ S256x10000.size a
  slices_S256x10000_o0_1920_S256x128 : S256x10000.Slices ![0, 1920] S256x128
  inb_S256x10000_S256x128_0_1920 : ∀ a, (![0, 1920] : Fin 2 → Nat) a + S256x128.size a ≤ S256x10000.size a
  slices_S256x10000_o0_2048_S256x128 : S256x10000.Slices ![0, 2048] S256x128
  inb_S256x10000_S256x128_0_2048 : ∀ a, (![0, 2048] : Fin 2 → Nat) a + S256x128.size a ≤ S256x10000.size a
  slices_S256x10000_o0_2176_S256x128 : S256x10000.Slices ![0, 2176] S256x128
  inb_S256x10000_S256x128_0_2176 : ∀ a, (![0, 2176] : Fin 2 → Nat) a + S256x128.size a ≤ S256x10000.size a
  slices_S256x10000_o0_2304_S256x128 : S256x10000.Slices ![0, 2304] S256x128
  inb_S256x10000_S256x128_0_2304 : ∀ a, (![0, 2304] : Fin 2 → Nat) a + S256x128.size a ≤ S256x10000.size a
  slices_S256x10000_o0_2432_S256x128 : S256x10000.Slices ![0, 2432] S256x128
  inb_S256x10000_S256x128_0_2432 : ∀ a, (![0, 2432] : Fin 2 → Nat) a + S256x128.size a ≤ S256x10000.size a
  slices_S256x10000_o0_2560_S256x128 : S256x10000.Slices ![0, 2560] S256x128
  inb_S256x10000_S256x128_0_2560 : ∀ a, (![0, 2560] : Fin 2 → Nat) a + S256x128.size a ≤ S256x10000.size a
  slices_S256x10000_o0_2688_S256x128 : S256x10000.Slices ![0, 2688] S256x128
  inb_S256x10000_S256x128_0_2688 : ∀ a, (![0, 2688] : Fin 2 → Nat) a + S256x128.size a ≤ S256x10000.size a
  slices_S256x10000_o0_2816_S256x128 : S256x10000.Slices ![0, 2816] S256x128
  inb_S256x10000_S256x128_0_2816 : ∀ a, (![0, 2816] : Fin 2 → Nat) a + S256x128.size a ≤ S256x10000.size a
  slices_S256x10000_o0_2944_S256x128 : S256x10000.Slices ![0, 2944] S256x128
  inb_S256x10000_S256x128_0_2944 : ∀ a, (![0, 2944] : Fin 2 → Nat) a + S256x128.size a ≤ S256x10000.size a
  slices_S256x10000_o0_3072_S256x128 : S256x10000.Slices ![0, 3072] S256x128
  inb_S256x10000_S256x128_0_3072 : ∀ a, (![0, 3072] : Fin 2 → Nat) a + S256x128.size a ≤ S256x10000.size a
  slices_S256x10000_o0_3200_S256x128 : S256x10000.Slices ![0, 3200] S256x128
  inb_S256x10000_S256x128_0_3200 : ∀ a, (![0, 3200] : Fin 2 → Nat) a + S256x128.size a ≤ S256x10000.size a
  slices_S256x10000_o0_3328_S256x128 : S256x10000.Slices ![0, 3328] S256x128
  inb_S256x10000_S256x128_0_3328 : ∀ a, (![0, 3328] : Fin 2 → Nat) a + S256x128.size a ≤ S256x10000.size a
  slices_S256x10000_o0_3456_S256x128 : S256x10000.Slices ![0, 3456] S256x128
  inb_S256x10000_S256x128_0_3456 : ∀ a, (![0, 3456] : Fin 2 → Nat) a + S256x128.size a ≤ S256x10000.size a
  slices_S256x10000_o0_3584_S256x128 : S256x10000.Slices ![0, 3584] S256x128
  inb_S256x10000_S256x128_0_3584 : ∀ a, (![0, 3584] : Fin 2 → Nat) a + S256x128.size a ≤ S256x10000.size a
  slices_S256x10000_o0_3712_S256x128 : S256x10000.Slices ![0, 3712] S256x128
  inb_S256x10000_S256x128_0_3712 : ∀ a, (![0, 3712] : Fin 2 → Nat) a + S256x128.size a ≤ S256x10000.size a
  slices_S256x10000_o0_3840_S256x128 : S256x10000.Slices ![0, 3840] S256x128
  inb_S256x10000_S256x128_0_3840 : ∀ a, (![0, 3840] : Fin 2 → Nat) a + S256x128.size a ≤ S256x10000.size a
  slices_S256x10000_o0_3968_S256x128 : S256x10000.Slices ![0, 3968] S256x128
  inb_S256x10000_S256x128_0_3968 : ∀ a, (![0, 3968] : Fin 2 → Nat) a + S256x128.size a ≤ S256x10000.size a
  slices_S256x10000_o0_4096_S256x128 : S256x10000.Slices ![0, 4096] S256x128
  inb_S256x10000_S256x128_0_4096 : ∀ a, (![0, 4096] : Fin 2 → Nat) a + S256x128.size a ≤ S256x10000.size a
  slices_S256x10000_o0_4224_S256x128 : S256x10000.Slices ![0, 4224] S256x128
  inb_S256x10000_S256x128_0_4224 : ∀ a, (![0, 4224] : Fin 2 → Nat) a + S256x128.size a ≤ S256x10000.size a
  slices_S256x10000_o0_4352_S256x128 : S256x10000.Slices ![0, 4352] S256x128
  inb_S256x10000_S256x128_0_4352 : ∀ a, (![0, 4352] : Fin 2 → Nat) a + S256x128.size a ≤ S256x10000.size a
  slices_S256x10000_o0_4480_S256x128 : S256x10000.Slices ![0, 4480] S256x128
  inb_S256x10000_S256x128_0_4480 : ∀ a, (![0, 4480] : Fin 2 → Nat) a + S256x128.size a ≤ S256x10000.size a
  slices_S256x10000_o0_4608_S256x128 : S256x10000.Slices ![0, 4608] S256x128
  inb_S256x10000_S256x128_0_4608 : ∀ a, (![0, 4608] : Fin 2 → Nat) a + S256x128.size a ≤ S256x10000.size a
  slices_S256x10000_o0_4736_S256x128 : S256x10000.Slices ![0, 4736] S256x128
  inb_S256x10000_S256x128_0_4736 : ∀ a, (![0, 4736] : Fin 2 → Nat) a + S256x128.size a ≤ S256x10000.size a
  slices_S256x10000_o0_4864_S256x128 : S256x10000.Slices ![0, 4864] S256x128
  inb_S256x10000_S256x128_0_4864 : ∀ a, (![0, 4864] : Fin 2 → Nat) a + S256x128.size a ≤ S256x10000.size a
  slices_S256x10000_o0_4992_S256x128 : S256x10000.Slices ![0, 4992] S256x128
  inb_S256x10000_S256x128_0_4992 : ∀ a, (![0, 4992] : Fin 2 → Nat) a + S256x128.size a ≤ S256x10000.size a
  slices_S256x10000_o0_5120_S256x128 : S256x10000.Slices ![0, 5120] S256x128
  inb_S256x10000_S256x128_0_5120 : ∀ a, (![0, 5120] : Fin 2 → Nat) a + S256x128.size a ≤ S256x10000.size a
  slices_S256x10000_o0_5248_S256x128 : S256x10000.Slices ![0, 5248] S256x128
  inb_S256x10000_S256x128_0_5248 : ∀ a, (![0, 5248] : Fin 2 → Nat) a + S256x128.size a ≤ S256x10000.size a
  slices_S256x10000_o0_5376_S256x128 : S256x10000.Slices ![0, 5376] S256x128
  inb_S256x10000_S256x128_0_5376 : ∀ a, (![0, 5376] : Fin 2 → Nat) a + S256x128.size a ≤ S256x10000.size a
  slices_S256x10000_o0_5504_S256x128 : S256x10000.Slices ![0, 5504] S256x128
  inb_S256x10000_S256x128_0_5504 : ∀ a, (![0, 5504] : Fin 2 → Nat) a + S256x128.size a ≤ S256x10000.size a
  slices_S256x10000_o0_5632_S256x128 : S256x10000.Slices ![0, 5632] S256x128
  inb_S256x10000_S256x128_0_5632 : ∀ a, (![0, 5632] : Fin 2 → Nat) a + S256x128.size a ≤ S256x10000.size a
  slices_S256x10000_o0_5760_S256x128 : S256x10000.Slices ![0, 5760] S256x128
  inb_S256x10000_S256x128_0_5760 : ∀ a, (![0, 5760] : Fin 2 → Nat) a + S256x128.size a ≤ S256x10000.size a
  slices_S256x10000_o0_5888_S256x128 : S256x10000.Slices ![0, 5888] S256x128
  inb_S256x10000_S256x128_0_5888 : ∀ a, (![0, 5888] : Fin 2 → Nat) a + S256x128.size a ≤ S256x10000.size a
  slices_S256x10000_o0_6016_S256x128 : S256x10000.Slices ![0, 6016] S256x128
  inb_S256x10000_S256x128_0_6016 : ∀ a, (![0, 6016] : Fin 2 → Nat) a + S256x128.size a ≤ S256x10000.size a
  slices_S256x10000_o0_6144_S256x128 : S256x10000.Slices ![0, 6144] S256x128
  inb_S256x10000_S256x128_0_6144 : ∀ a, (![0, 6144] : Fin 2 → Nat) a + S256x128.size a ≤ S256x10000.size a
  slices_S256x10000_o0_6272_S256x128 : S256x10000.Slices ![0, 6272] S256x128
  inb_S256x10000_S256x128_0_6272 : ∀ a, (![0, 6272] : Fin 2 → Nat) a + S256x128.size a ≤ S256x10000.size a
  slices_S256x10000_o0_6400_S256x128 : S256x10000.Slices ![0, 6400] S256x128
  inb_S256x10000_S256x128_0_6400 : ∀ a, (![0, 6400] : Fin 2 → Nat) a + S256x128.size a ≤ S256x10000.size a
  slices_S256x10000_o0_6528_S256x128 : S256x10000.Slices ![0, 6528] S256x128
  inb_S256x10000_S256x128_0_6528 : ∀ a, (![0, 6528] : Fin 2 → Nat) a + S256x128.size a ≤ S256x10000.size a
  slices_S256x10000_o0_6656_S256x128 : S256x10000.Slices ![0, 6656] S256x128
  inb_S256x10000_S256x128_0_6656 : ∀ a, (![0, 6656] : Fin 2 → Nat) a + S256x128.size a ≤ S256x10000.size a
  slices_S256x10000_o0_6784_S256x128 : S256x10000.Slices ![0, 6784] S256x128
  inb_S256x10000_S256x128_0_6784 : ∀ a, (![0, 6784] : Fin 2 → Nat) a + S256x128.size a ≤ S256x10000.size a
  slices_S256x10000_o0_6912_S256x128 : S256x10000.Slices ![0, 6912] S256x128
  inb_S256x10000_S256x128_0_6912 : ∀ a, (![0, 6912] : Fin 2 → Nat) a + S256x128.size a ≤ S256x10000.size a
  slices_S256x10000_o0_7040_S256x128 : S256x10000.Slices ![0, 7040] S256x128
  inb_S256x10000_S256x128_0_7040 : ∀ a, (![0, 7040] : Fin 2 → Nat) a + S256x128.size a ≤ S256x10000.size a
  slices_S256x10000_o0_7168_S256x128 : S256x10000.Slices ![0, 7168] S256x128
  inb_S256x10000_S256x128_0_7168 : ∀ a, (![0, 7168] : Fin 2 → Nat) a + S256x128.size a ≤ S256x10000.size a
  slices_S256x10000_o0_7296_S256x128 : S256x10000.Slices ![0, 7296] S256x128
  inb_S256x10000_S256x128_0_7296 : ∀ a, (![0, 7296] : Fin 2 → Nat) a + S256x128.size a ≤ S256x10000.size a
  slices_S256x10000_o0_7424_S256x128 : S256x10000.Slices ![0, 7424] S256x128
  inb_S256x10000_S256x128_0_7424 : ∀ a, (![0, 7424] : Fin 2 → Nat) a + S256x128.size a ≤ S256x10000.size a
  slices_S256x10000_o0_7552_S256x128 : S256x10000.Slices ![0, 7552] S256x128
  inb_S256x10000_S256x128_0_7552 : ∀ a, (![0, 7552] : Fin 2 → Nat) a + S256x128.size a ≤ S256x10000.size a
  slices_S256x10000_o0_7680_S256x128 : S256x10000.Slices ![0, 7680] S256x128
  inb_S256x10000_S256x128_0_7680 : ∀ a, (![0, 7680] : Fin 2 → Nat) a + S256x128.size a ≤ S256x10000.size a
  slices_S256x10000_o0_7808_S256x128 : S256x10000.Slices ![0, 7808] S256x128
  inb_S256x10000_S256x128_0_7808 : ∀ a, (![0, 7808] : Fin 2 → Nat) a + S256x128.size a ≤ S256x10000.size a
  slices_S256x10000_o0_7936_S256x128 : S256x10000.Slices ![0, 7936] S256x128
  inb_S256x10000_S256x128_0_7936 : ∀ a, (![0, 7936] : Fin 2 → Nat) a + S256x128.size a ≤ S256x10000.size a
  slices_S256x10000_o0_8064_S256x128 : S256x10000.Slices ![0, 8064] S256x128
  inb_S256x10000_S256x128_0_8064 : ∀ a, (![0, 8064] : Fin 2 → Nat) a + S256x128.size a ≤ S256x10000.size a
  slices_S256x10000_o0_8192_S256x128 : S256x10000.Slices ![0, 8192] S256x128
  inb_S256x10000_S256x128_0_8192 : ∀ a, (![0, 8192] : Fin 2 → Nat) a + S256x128.size a ≤ S256x10000.size a
  slices_S256x10000_o0_8320_S256x128 : S256x10000.Slices ![0, 8320] S256x128
  inb_S256x10000_S256x128_0_8320 : ∀ a, (![0, 8320] : Fin 2 → Nat) a + S256x128.size a ≤ S256x10000.size a
  slices_S256x10000_o0_8448_S256x128 : S256x10000.Slices ![0, 8448] S256x128
  inb_S256x10000_S256x128_0_8448 : ∀ a, (![0, 8448] : Fin 2 → Nat) a + S256x128.size a ≤ S256x10000.size a
  slices_S256x10000_o0_8576_S256x128 : S256x10000.Slices ![0, 8576] S256x128
  inb_S256x10000_S256x128_0_8576 : ∀ a, (![0, 8576] : Fin 2 → Nat) a + S256x128.size a ≤ S256x10000.size a
  slices_S256x10000_o0_8704_S256x128 : S256x10000.Slices ![0, 8704] S256x128
  inb_S256x10000_S256x128_0_8704 : ∀ a, (![0, 8704] : Fin 2 → Nat) a + S256x128.size a ≤ S256x10000.size a
  slices_S256x10000_o0_8832_S256x128 : S256x10000.Slices ![0, 8832] S256x128
  inb_S256x10000_S256x128_0_8832 : ∀ a, (![0, 8832] : Fin 2 → Nat) a + S256x128.size a ≤ S256x10000.size a
  slices_S256x10000_o0_8960_S256x128 : S256x10000.Slices ![0, 8960] S256x128
  inb_S256x10000_S256x128_0_8960 : ∀ a, (![0, 8960] : Fin 2 → Nat) a + S256x128.size a ≤ S256x10000.size a
  slices_S256x10000_o0_9088_S256x128 : S256x10000.Slices ![0, 9088] S256x128
  inb_S256x10000_S256x128_0_9088 : ∀ a, (![0, 9088] : Fin 2 → Nat) a + S256x128.size a ≤ S256x10000.size a
  slices_S256x10000_o0_9216_S256x128 : S256x10000.Slices ![0, 9216] S256x128
  inb_S256x10000_S256x128_0_9216 : ∀ a, (![0, 9216] : Fin 2 → Nat) a + S256x128.size a ≤ S256x10000.size a
  slices_S256x10000_o0_9344_S256x128 : S256x10000.Slices ![0, 9344] S256x128
  inb_S256x10000_S256x128_0_9344 : ∀ a, (![0, 9344] : Fin 2 → Nat) a + S256x128.size a ≤ S256x10000.size a
  slices_S256x10000_o0_9472_S256x128 : S256x10000.Slices ![0, 9472] S256x128
  inb_S256x10000_S256x128_0_9472 : ∀ a, (![0, 9472] : Fin 2 → Nat) a + S256x128.size a ≤ S256x10000.size a
  slices_S256x10000_o0_9600_S256x128 : S256x10000.Slices ![0, 9600] S256x128
  inb_S256x10000_S256x128_0_9600 : ∀ a, (![0, 9600] : Fin 2 → Nat) a + S256x128.size a ≤ S256x10000.size a
  slices_S256x10000_o0_9728_S256x128 : S256x10000.Slices ![0, 9728] S256x128
  inb_S256x10000_S256x128_0_9728 : ∀ a, (![0, 9728] : Fin 2 → Nat) a + S256x128.size a ≤ S256x10000.size a
  slices_S256x10000_o0_9856_S256x128 : S256x10000.Slices ![0, 9856] S256x128
  inb_S256x10000_S256x128_0_9856 : ∀ a, (![0, 9856] : Fin 2 → Nat) a + S256x128.size a ≤ S256x10000.size a
  iota_S256x16_d1_w32 : S256x16.Iotas .tc 32 [1]
  broadcasts_S256x1_S256x16 : S256x1.Broadcasts S256x16
  slices_S256x10000_o0_9984_S256x16 : S256x10000.Slices ![0, 9984] S256x16
  inb_S256x10000_S256x16_0_9984 : ∀ a, (![0, 9984] : Fin 2 → Nat) a + S256x16.size a ≤ S256x10000.size a
  h_S256x16 : 0 < S256x16.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x10000.size a ≤ S4096x10000.size a
  hwx0_0 : ∀ i : grid0.Coords, EltTy.bits .f32 = 32 ∨ (Rect.block (s := S4096x10000) S256x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S4096x128.size a
  hwx0_1 : ∀ i : grid0.Coords, EltTy.bits .i32 = 32 ∨ (Rect.block (s := S4096x128) S256x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x10000.size a ≤ S4096x10000.size a
  hwx0_2 : ∀ i : grid0.Coords, EltTy.bits .f32 = 32 ∨ (Rect.block (s := S4096x10000) S256x10000.size (cc0_transform_2 i) (hinb0_2 i)).WholeWords (EltTy.packing .f32)

variable [Facts₀]

abbrev win0_0 : Pipeline.Window sig grid0 :=
  Pipeline.Window.ofSpec (Memref.whole main_arg0) S256x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x10000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x10000 : Shape := ⟨2, ![4096, 10000]⟩
abbrev S4096x128 : Shape := ⟨2, ![4096, 128]⟩
abbrev S4096 : Shape := ⟨1, ![4096]⟩
abbrev S4096x1 : Shape := ⟨2, ![4096, 1]⟩
abbrev S_ : Shape := ⟨0, ![]⟩
abbrev S4096x128x1 : Shape := ⟨3, ![4096, 128, 1]⟩
abbrev S4096x128x2 : Shape := ⟨3, ![4096, 128, 2]⟩

abbrev nBuf : Space → Nat
  | .hbm => 35
  | .vmem => 0
  | .smem => 0
  | _ => 0

abbrev bufTy : (tb : Table) → Fin (tcTables nBuf tb) → BufTy
  | .hbm, ⟨0, _⟩ => ⟨S4096x10000, .f32⟩
  | .hbm, ⟨1, _⟩ => ⟨S4096x128, .i32⟩
  | .hbm, ⟨2, _⟩ => ⟨S4096, .i32⟩
  | .hbm, ⟨3, _⟩ => ⟨S4096x1, .i32⟩
  | .hbm, ⟨4, _⟩ => ⟨S_, .f32⟩
  | .hbm, ⟨5, _⟩ => ⟨S4096x10000, .f32⟩
  | .hbm, ⟨6, _⟩ => ⟨S_, .i32⟩
  | .hbm, ⟨7, _⟩ => ⟨S4096x1, .i32⟩
  | .hbm, ⟨8, _⟩ => ⟨S4096x1, .i1⟩
  | .hbm, ⟨9, _⟩ => ⟨S_, .i32⟩
  | .hbm, ⟨10, _⟩ => ⟨S4096x1, .i32⟩
  | .hbm, ⟨11, _⟩ => ⟨S4096x1, .i32⟩
  | .hbm, ⟨12, _⟩ => ⟨S4096x1, .i32⟩
  | .hbm, ⟨13, _⟩ => ⟨S_, .i32⟩
  | .hbm, ⟨14, _⟩ => ⟨S4096x128, .i32⟩
  | .hbm, ⟨15, _⟩ => ⟨S4096x128, .i1⟩
  | .hbm, ⟨16, _⟩ => ⟨S_, .i32⟩
  | .hbm, ⟨17, _⟩ => ⟨S4096x128, .i32⟩
  | .hbm, ⟨18, _⟩ => ⟨S4096x128, .i32⟩
  | .hbm, ⟨19, _⟩ => ⟨S4096x128, .i32⟩
  | .hbm, ⟨20, _⟩ => ⟨S4096x128, .i32⟩
  | .hbm, ⟨21, _⟩ => ⟨S4096x128x1, .i32⟩
  | .hbm, ⟨22, _⟩ => ⟨S4096x128x1, .i32⟩
  | .hbm, ⟨23, _⟩ => ⟨S4096x128x2, .i32⟩
  | .hbm, ⟨24, _⟩ => ⟨S_, .f32⟩
  | .hbm, ⟨25, _⟩ => ⟨S4096x128, .f32⟩
  | .hbm, ⟨26, _⟩ => ⟨S4096x10000, .f32⟩
  | .hbm, ⟨27, _⟩ => ⟨S4096x10000, .f32⟩
  | .hbm, ⟨28, _⟩ => ⟨S_, .f32⟩
  | .hbm, ⟨29, _⟩ => ⟨S4096x10000, .f32⟩
  | .hbm, ⟨30, _⟩ => ⟨S4096x10000, .i1⟩
  | .hbm, ⟨31, _⟩ => ⟨S_, .f32⟩
  | .hbm, ⟨32, _⟩ => ⟨S_, .f32⟩
  | .hbm, ⟨33, _⟩ => ⟨S4096x10000, .f32⟩
  | .hbm, ⟨34, _⟩ => ⟨S4096x10000, .f32⟩
  | _, _ => ⟨S4096x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_call0_v0 : Ref sig .tc := ⟨.hbm, 32, rfl⟩
abbrev main_call0_v1 : Ref sig .tc := ⟨.hbm, 33, rfl⟩
abbrev main_v22 : Ref sig .tc := ⟨.hbm, 34, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  bcast_S_S4096x10000 : S_.BroadcastsInDim S4096x10000 (![] : Fin 0 → Fin S4096x10000.rank)
  bcast_S_S4096x1 : S_.BroadcastsInDim S4096x1 (![] : Fin 0 → Fin S4096x1.rank)
  bcast_S_S4096x128 : S_.BroadcastsInDim S4096x128 (![] : Fin 0 → Fin S4096x128.rank)
  bcast_S4096x1_S4096x128_0_1 : S4096x1.BroadcastsInDim S4096x128 (![0, 1] : Fin 2 → Fin S4096x128.rank)
  bcast_S4096x128_S4096x128x1_0_1 : S4096x128.BroadcastsInDim S4096x128x1 (![0, 1] : Fin 2 → Fin S4096x128x1.rank)
  concatenates_S4096x128x1_S4096x128x1_S4096x128x2_d2 : Shape.Concatenates [S4096x128x1, S4096x128x1] S4096x128x2 2
  scatter_S4096x10000_S4096x128x2_S4096x128_n_01_01_2_wf : ScatterDims.WF S4096x10000 S4096x128x2 S4096x128 [] [0, 1] [0, 1] 2

variable [Facts₀]

def scatter_S4096x10000_S4096x128x2_S4096x128_n_01_01_2 : ScatterDims S4096x10000 S4096x128x2 S4096x128 where
  updateWindowDims := []
  insertedWindowDims := [0, 1]
  scatterDimsToOperandDims := [0, 1]
  indexVectorDim := 2
  wf := scatter_S4096x10000_S4096x128x2_S4096x128_n_01_01_2_wf

class Facts : Prop extends Facts₀ where

variable [Facts]
-- ==== Proof.MovesPre.lean ====
/-
  What the precondition says of the integer argument: every listed move is nonnegative.

  The precondition is the conjunction of two "for all elements" tests, each printed as an AND-reduction of a
  one-bit array to a single bit. The second tests `move ≥ 0` (a signed comparison with zero) at every element;
  the conjunction being one, that reduction is one, so the comparison is one at every element.
-/
import proofs.«416086_j90056874262977_2_alg».proof.Pre_finite_inputs
import Idealize.ShloMosaic.Lib.ReduceAll
import Idealize.ShloMosaic.Lib.ValueIdx

noncomputable section

namespace Cert.Moves

open Idealize.ShloMosaic Idealize.ShloMosaic.ValueIdx

/-- The scalar shape has one index. -/
instance subsingleton_scalar_idx : Subsingleton Cert.Pre_finite_inputs.S_.Idx := ⟨fun _ _ => funext fun d => d.elim0⟩

/-- A signed "at least zero" that came out one. -/
theorem nonneg_of_sge_zero (a : BitVec 32) (h : IntOp.cmpi .sge a 0#32 = 1#1) : 0 ≤ a.toInt := by
  have h' : (0#32 : BitVec 32).sle a = true := by
    cases hs : (0#32 : BitVec 32).sle a
    · have h0 : IntOp.cmpi .sge a 0#32 = 0#1 := by
        show BitVec.ofBool ((0#32 : BitVec 32).sle a) = 0#1
        rw [hs]; rfl
      rw [h0] at h; exact absurd h (by decide)
    · rfl
  have := (BitVec.sle_iff_toInt_le).1 h'
  simpa using this

/-- Under the precondition every move word is nonnegative. -/
theorem moves_nonneg {F : FTy → Type} [FloatOps F] [Cert.Pre_finite_inputs.Facts]
    (x : FVec F Cert.Pre_finite_inputs.S4096x10000 .f32) (pm : IVec Cert.Pre_finite_inputs.S4096x128 32)
    (h : Cert.Pre_finite_inputs.fn (F := F) x pm = fun _ => 1#1) (i : Cert.Pre_finite_inputs.S4096x128.Idx) :
    0 ≤ (pm i).toInt := by
  have h0 := congrFun h ix0
  dsimp only [Cert.Pre_finite_inputs.fn] at h0
  have h1 := (IntOp.andi_eq_one.1 h0).2
  have h2 := Host.reduce_andi_all _ _ _ _ _ h1 i
  exact nonneg_of_sge_zero _ h2

end Cert.Moves

end
-- ==== Proof.MovesSpec.lean ====
/-
  What both programs compute, as one function of the two argument arrays.

  Row `R` of the integer array lists 128 moves. Column `j` of row `R` is LEGAL when some listed move, read as a
  signed integer, is `j`. The result at `(R, j)` is `x (R, j)` times one or zero according to legality, except
  that a zero product is replaced by minus infinity.
-/
import Idealize.ShloMosaic.PureOps.Ideal
import Idealize.ShloMosaic.Lib.ValueIdx

noncomputable section

open scoped Classical

namespace Cert.Moves

open Idealize.ShloMosaic Idealize.ShloMosaic.ValueIdx

/-- Column `j` is one of the moves a row lists. -/
def Legal {K : Nat} (row : Fin K → BitVec 32) (j : Nat) : Prop := ∃ k, (row k).toInt = (j : Int)

/-- The zero-one weight of a column. -/
def weight {K : Nat} (row : Fin K → BitVec 32) (j : Nat) : EReal := if Legal row j then 1 else 0

/-- A product kept unless it is zero, which becomes minus infinity. -/
def keepNonzero (f : EReal) : EReal :=
  Scalar.select (FloatOps.cmpf (F := Ideal) (φ := .f32) .oeq f (Ideal.ofBits .f32 0x00000000#32)) (Ideal.ofBits .f32 0xFF800000#32) f

/-- The result at one position. -/
def outVal {K : Nat} (xv : EReal) (row : Fin K → BitVec 32) (j : Nat) : EReal := keepNonzero (xv * weight row j)

end Cert.Moves

end
-- ==== Proof.MovesScatter.lean ====
/-
  A scatter whose body keeps the update, all updates one constant: read at an index.

  The scatter builds a 0/1 table from a list of positions. After it, an element holds the constant
  exactly when some update's position is that element (an update whose position lies outside the
  operand is dropped), and the operand's own value otherwise. The order in which updates are applied
  does not matter here because they all write the same constant.

  The second half specialises this to positions given as (row, column) pairs, one pair per update and
  no window: update (r, k) lands at the pair of signed integers it reads at (r, k, 0) and (r, k, 1).
-/
import Idealize.ShloMosaic.PureOps
import Idealize.ShloMosaic.Lib.ValueIdx

noncomputable section

open scoped Classical

namespace Cert.Moves

open Idealize.ShloMosaic Idealize.ShloMosaic.ValueIdx

/-- The table, the positions and the updates of the scatter. -/
abbrev SX : Shape := ⟨2, ![4096, 10000]⟩
abbrev SI : Shape := ⟨3, ![4096, 128, 2]⟩
abbrev SU : Shape := ⟨2, ![4096, 128]⟩

/-- Folding a step that writes `c` at the position update `n` lands on (if any) and changes nothing else:
    element `i` ends as `c` iff some update in the list lands on `i`. -/
private theorem foldl_const_aux {s si u : Shape} {w : Nat} {α : Type} (d : ScatterDims s si u)
    (idx : IVec si w) (c : α) (i : s.Idx) (step : (s.Idx → α) → Fin u.numel → (s.Idx → α))
    (hstep : ∀ r n, step r n i = if d.resultIdx? (u.rowMajor.symm n) idx = some i then c else r i)
    (L : List (Fin u.numel)) (r : s.Idx → α) :
    L.foldl step r i = if ∃ n ∈ L, d.resultIdx? (u.rowMajor.symm n) idx = some i then c else r i := by
  induction L generalizing r with
  | nil => simp
  | cons n L ih =>
    rw [List.foldl_cons, ih, hstep]
    simp only [List.mem_cons, exists_eq_or_imp]
    by_cases h1 : d.resultIdx? (u.rowMajor.symm n) idx = some i
    · simp [h1]
    · simp [h1]

/-- An element after the scatter is the constant if some update lands on it, else what it was. -/
theorem scatter_const_apply {s si u : Shape} {w : Nat} {α : Type} (d : ScatterDims s si u) (x : s.Idx → α)
    (idx : IVec si w) (c : α) (i : s.Idx) :
    Host.scatter d (fun _ b => b) x idx (fun _ => c) i
      = if ∃ j : u.Idx, d.resultIdx? j idx = some i then c else x i := by
  unfold Host.scatter
  rw [foldl_const_aux d idx c i _ _ (List.finRange u.numel) x]
  · have : (∃ n ∈ List.finRange u.numel, d.resultIdx? (u.rowMajor.symm n) idx = some i) ↔
        ∃ j : u.Idx, d.resultIdx? j idx = some i := by
      constructor
      · rintro ⟨n, _, h⟩; exact ⟨_, h⟩
      · rintro ⟨j, h⟩; exact ⟨u.rowMajor j, List.mem_finRange _, by rw [Equiv.symm_apply_apply]; exact h⟩
    simp only [this]
  · intro r n
    cases h : d.resultIdx? (u.rowMajor.symm n) idx with
    | none => simp
    | some i0 =>
      by_cases hi : i = i0
      · subst hi; simp
      · have : ¬ i0 = i := fun e => hi e.symm
        simp [hi, this]

/-- One (row, column) position per update, no window. -/
abbrev movesDims (wf : ScatterDims.WF SX SI SU [] [0, 1] [0, 1] 2) : ScatterDims SX SI SU :=
  { updateWindowDims := [], insertedWindowDims := [0, 1], scatterDimsToOperandDims := [0, 1], indexVectorDim := 2, wf := wf }

/-- The first component of update (r, k)'s position is read at (r, k, 0). -/
private theorem siIdx0 (wf : ScatterDims.WF SX SI SU [] [0, 1] [0, 1] 2) (r : Fin 4096) (k : Fin 128) :
    (movesDims wf).siIdx (ix2 r k) ⟨0, Nat.zero_lt_two⟩ = ix3 r k (0 : Fin 2) := by
  funext b
  match b with
  | ⟨0, _⟩ => rfl
  | ⟨1, _⟩ => rfl
  | ⟨2, _⟩ => rfl

/-- The second component of update (r, k)'s position is read at (r, k, 1). -/
private theorem siIdx1 (wf : ScatterDims.WF SX SI SU [] [0, 1] [0, 1] 2) (r : Fin 4096) (k : Fin 128) :
    (movesDims wf).siIdx (ix2 r k) ⟨1, Nat.one_lt_two⟩ = ix3 r k (1 : Fin 2) := by
  funext b
  match b with
  | ⟨0, _⟩ => rfl
  | ⟨1, _⟩ => rfl
  | ⟨2, _⟩ => rfl

/-- The start on the row axis is the signed integer read at (r, k, 0). -/
private theorem start0 (wf : ScatterDims.WF SX SI SU [] [0, 1] [0, 1] 2) (idx : IVec SI 32) (r : Fin 4096) (k : Fin 128) :
    (movesDims wf).start (ix2 r k) idx 0 = (idx (ix3 r k (0 : Fin 2))).toInt := by
  rw [← siIdx0 wf r k]
  rfl

/-- The start on the column axis is the signed integer read at (r, k, 1). -/
private theorem start1 (wf : ScatterDims.WF SX SI SU [] [0, 1] [0, 1] 2) (idx : IVec SI 32) (r : Fin 4096) (k : Fin 128) :
    (movesDims wf).start (ix2 r k) idx 1 = (idx (ix3 r k (1 : Fin 2))).toInt := by
  rw [← siIdx1 wf r k]
  rfl

/-- Both operand axes are inserted window axes, so the window coordinate is zero on each. -/
private theorem window0 (wf : ScatterDims.WF SX SI SU [] [0, 1] [0, 1] 2) (j : SU.Idx) (a : Fin 2) :
    (movesDims wf).window j a = 0 := by
  match a with
  | ⟨0, _⟩ => rfl
  | ⟨1, _⟩ => rfl

/-- Update (r, k) lands at `i` exactly when the two signed integers it reads are `i`'s coordinates. -/
theorem resultIdx_moves (wf : ScatterDims.WF SX SI SU [] [0, 1] [0, 1] 2) (idx : IVec SI 32) (r : Fin 4096) (k : Fin 128)
    (i : SX.Idx) :
    (movesDims wf).resultIdx? (ix2 r k) idx = some i ↔
      (idx (ix3 r k (0 : Fin 2))).toInt = ((i 0).val : ℤ) ∧ (idx (ix3 r k (1 : Fin 2))).toInt = ((i 1).val : ℤ) := by
  have h0 := start0 wf idx r k
  have h1 := start1 wf idx r k
  have w0 := window0 wf (ix2 r k) 0
  have w1 := window0 wf (ix2 r k) 1
  have b0 : (i 0).val < 4096 := (i 0).isLt
  have b1 : (i 1).val < 10000 := (i 1).isLt
  have s0 : SX.size 0 = 4096 := rfl
  have s1 : SX.size 1 = 10000 := rfl
  unfold ScatterDims.resultIdx?
  split
  · next h =>
    have hh0 := h 0
    have hh1 := h 1
    simp only [h0, h1, w0, w1, s0, s1] at hh0 hh1
    rw [Option.some.injEq]
    constructor
    · intro e
      have e0 := congrArg Fin.val (congrFun e 0)
      have e1 := congrArg Fin.val (congrFun e 1)
      simp only [h0, h1, w0, w1] at e0 e1
      omega
    · rintro ⟨e0, e1⟩
      funext a
      apply Fin.ext
      match a with
      | ⟨0, _⟩ =>
        show ((movesDims wf).start (ix2 r k) idx 0 + ((movesDims wf).window (ix2 r k) 0 : ℕ)).toNat = (i 0).val
        rw [h0, w0]; omega
      | ⟨1, _⟩ =>
        show ((movesDims wf).start (ix2 r k) idx 1 + ((movesDims wf).window (ix2 r k) 1 : ℕ)).toNat = (i 1).val
        rw [h1, w1]; omega
  · next h =>
    constructor
    · intro e; cases e
    · rintro ⟨e0, e1⟩
      exfalso
      apply h
      intro a
      match a with
      | ⟨0, _⟩ =>
        show 0 ≤ (movesDims wf).start (ix2 r k) idx 0 + ((movesDims wf).window (ix2 r k) 0 : ℕ) ∧
          (movesDims wf).start (ix2 r k) idx 0 + ((movesDims wf).window (ix2 r k) 0 : ℕ) < ((4096 : ℕ) : ℤ)
        rw [h0, w0]; omega
      | ⟨1, _⟩ =>
        show 0 ≤ (movesDims wf).start (ix2 r k) idx 1 + ((movesDims wf).window (ix2 r k) 1 : ℕ) ∧
          (movesDims wf).start (ix2 r k) idx 1 + ((movesDims wf).window (ix2 r k) 1 : ℕ) < ((10000 : ℕ) : ℤ)
        rw [h1, w1]; omega

/-- The table after the scatter, at an index. -/
theorem scatter_moves_apply {α : Type} (wf : ScatterDims.WF SX SI SU [] [0, 1] [0, 1] 2) (x : SX.Idx → α)
    (idx : IVec SI 32) (c : α) (i : SX.Idx) :
    Host.scatter (movesDims wf) (fun _ b => b) x idx (fun _ => c) i
      = if ∃ (r : Fin 4096) (k : Fin 128), (idx (ix3 r k (0 : Fin 2))).toInt = ((i 0).val : ℤ)
            ∧ (idx (ix3 r k (1 : Fin 2))).toInt = ((i 1).val : ℤ) then c else x i := by
  rw [scatter_const_apply]
  have hex : (∃ j : SU.Idx, (movesDims wf).resultIdx? j idx = some i) ↔
      ∃ (r : Fin 4096) (k : Fin 128), (idx (ix3 r k (0 : Fin 2))).toInt = ((i 0).val : ℤ)
        ∧ (idx (ix3 r k (1 : Fin 2))).toInt = ((i 1).val : ℤ) := by
    constructor
    · rintro ⟨j, h⟩
      have hj := eq_ix2 j
      rw [hj] at h
      exact ⟨j 0, j 1, (resultIdx_moves wf idx (j 0) (j 1) i).1 h⟩
    · rintro ⟨r, k, h⟩
      exact ⟨ix2 r k, (resultIdx_moves wf idx r k i).2 h⟩
  simp only [hex]

end Cert.Moves

end
-- ==== Proof.MovesRef.lean ====
/-
  The reference's result, as a term of the two arguments, read at an index.

  The reference turns every listed move into a position (row, column): the row is the move's own row; the column
  is the move itself, with ten thousand added when it is negative. A table of zeros receives a one at every
  position inside it. The input is multiplied by the table and zero products become minus infinity. With every
  move nonnegative the column is the move, so the table holds a one at `(R, j)` exactly when row `R` lists `j`:
  the specification's value.
-/
import proofs.«416086_j90056874262977_2_alg».proof.ReferenceIdeal
import proofs.«416086_j90056874262977_2_alg».proof.Proof.MovesSpec
import proofs.«416086_j90056874262977_2_alg».proof.Proof.MovesScatter
import Idealize.ShloMosaic.Lib.ValueIdx
import Idealize.ShloMosaic.Lib.Pipeline.Value
import Idealize.ShloMosaic.Lib.IdealHost

noncomputable section

open scoped Classical

namespace Cert.Moves

open Idealize.ShloMosaic Idealize.ShloMosaic.ValueIdx
open Cert.ReferenceIdeal Cert.ReferenceIdeal.Facts₀ Cert.ReferenceIdeal.Facts

variable {F : FTy → Type} [FloatOps F] [Cert.ReferenceIdeal.Facts]

/-- The row of each row (a row number is never negative, so the wrap-around leaves it). -/
def rowIdx : IVec S4096x1 32 :=
  select (cmpi .slt (broadcastInDim S4096x1 ![0] bcast_S4096_S4096x1_0 (iotaInDim S4096 32 0))
      (broadcastInDim S4096x1 ![] bcast_S_S4096x1 (constantI S_ 32 0#32)))
    (addi (broadcastInDim S4096x1 ![0] bcast_S4096_S4096x1_0 (iotaInDim S4096 32 0))
      (broadcastInDim S4096x1 ![] bcast_S_S4096x1 (constantI S_ 32 4096#32)))
    (broadcastInDim S4096x1 ![0] bcast_S4096_S4096x1_0 (iotaInDim S4096 32 0))

/-- The column of each move: the move, plus ten thousand when it is negative. -/
def colIdx (pm : IVec S4096x128 32) : IVec S4096x128 32 :=
  select (cmpi .slt pm (broadcastInDim S4096x128 ![] bcast_S_S4096x128 (constantI S_ 32 0#32)))
    (addi pm (broadcastInDim S4096x128 ![] bcast_S_S4096x128 (constantI S_ 32 10000#32))) pm

/-- The (row, column) pairs. -/
def positions (pm : IVec S4096x128 32) : IVec S4096x128x2 32 :=
  concatenate S4096x128x2 2
    [⟨S4096x128x1, broadcastInDim S4096x128x1 ![0, 1] bcast_S4096x128_S4096x128x1_0_1
        (broadcastInDim S4096x128 ![0, 1] bcast_S4096x1_S4096x128_0_1 rowIdx)⟩,
     ⟨S4096x128x1, broadcastInDim S4096x128x1 ![0, 1] bcast_S4096x128_S4096x128x1_0_1 (colIdx pm)⟩]
    concatenates_S4096x128x1_S4096x128x1_S4096x128x2_d2

/-- The table of ones and zeros. -/
def maskArr (pm : IVec S4096x128 32) : FVec F S4096x10000 .f32 :=
  Host.scatter scatter_S4096x10000_S4096x128x2_S4096x128_n_01_01_2 (fun _ b => b)
    (broadcastInDim S4096x10000 ![] bcast_S_S4096x10000 (constant S_ .f32 0x00000000#32))
    (positions pm)
    (broadcastInDim S4096x128 ![] bcast_S_S4096x128 (constant S_ .f32 0x3F800000#32))

/-- The reference's result. -/
def refOut (x : FVec F S4096x10000 .f32) (pm : IVec S4096x128 32) : FVec F S4096x10000 .f32 :=
  select (cmpf .oeq (mulf x (maskArr pm)) (broadcastInDim S4096x10000 ![] bcast_S_S4096x10000 (constant S_ .f32 0x00000000#32)))
    (broadcastInDim S4096x10000 ![] bcast_S_S4096x10000 (id (constant S_ .f32 0xFF800000#32)))
    (mulf x (maskArr pm))

/-- A small natural number, as a 32-bit word read signed, is itself. -/
private theorem toInt_ofNat_small (n : Nat) (h : n < 4096) : (BitVec.ofNat 32 n).toInt = (n : ℤ) := by
  rw [BitVec.toInt_ofNat', Int.bmod_def]
  split <;> omega

/-- A signed "less than zero" test of a nonnegative word is the bit zero. -/
private theorem cmpi_slt_zero (a : BitVec 32) (h : 0 ≤ a.toInt) : IntOp.cmpi .slt a 0#32 = 0#1 := by
  have : a.slt 0#32 = false := by
    rw [BitVec.slt_eq_decide]
    simp only [BitVec.toInt_zero, decide_eq_false_iff_not, not_lt]
    exact h
  show BitVec.ofBool (a.slt 0#32) = 0#1
  rw [this]; rfl

/-- Row `r`'s row number is the word `r`. -/
private theorem rowIdx_apply (r : Fin 4096) : rowIdx (ix2 r (0 : Fin 1)) = BitVec.ofNat 32 r.val := by
  have hA : broadcastInDim S4096x1 ![0] bcast_S4096_S4096x1_0 (iotaInDim S4096 32 0) (ix2 r (0 : Fin 1)) = BitVec.ofNat 32 r.val := by
    rw [broadcastInDim_apply _ _ _ _ (ix1 r) (by intro a; match a with | ⟨0, _⟩ => rfl)]
    rfl
  show Scalar.select (IntOp.cmpi .slt (broadcastInDim S4096x1 ![0] bcast_S4096_S4096x1_0 (iotaInDim S4096 32 0) (ix2 r (0 : Fin 1))) 0#32)
      (IntOp.addi (broadcastInDim S4096x1 ![0] bcast_S4096_S4096x1_0 (iotaInDim S4096 32 0) (ix2 r (0 : Fin 1))) 4096#32)
      (broadcastInDim S4096x1 ![0] bcast_S4096_S4096x1_0 (iotaInDim S4096 32 0) (ix2 r (0 : Fin 1))) = _
  rw [hA, cmpi_slt_zero _ (by rw [toInt_ofNat_small _ r.isLt]; omega), select_zero]

/-- A nonnegative move's column is the move. -/
private theorem colIdx_apply (pm : IVec S4096x128 32) (i : S4096x128.Idx) (h : 0 ≤ (pm i).toInt) : colIdx pm i = pm i := by
  show Scalar.select (IntOp.cmpi .slt (pm i) 0#32) (IntOp.addi (pm i) 10000#32) (pm i) = _
  rw [cmpi_slt_zero _ h, select_zero]

/-- The first component of position `(r, k)` is the row number. -/
private theorem positions_apply0 (pm : IVec S4096x128 32) (r : Fin 4096) (k : Fin 128) :
    positions pm (ix3 r k (0 : Fin 2)) = BitVec.ofNat 32 r.val := by
  unfold positions
  refine (concatenate_pair_apply_left (s₁ := S4096x128x1) (s₂ := S4096x128x1) _ _ _ _ (ix3 r k (0 : Fin 2)) rfl (ix3 r k (0 : Fin 1))
    (by intro b; match b with | ⟨0, _⟩ => rfl | ⟨1, _⟩ => rfl | ⟨2, _⟩ => rfl)).trans ?_
  rw [broadcastInDim_apply _ _ _ _ (ix2 r k) (by intro a; match a with | ⟨0, _⟩ => rfl | ⟨1, _⟩ => rfl)]
  rw [broadcastInDim_apply _ _ _ _ (ix2 r (0 : Fin 1)) (by intro a; match a with | ⟨0, _⟩ => rfl | ⟨1, _⟩ => rfl)]
  exact rowIdx_apply r

/-- The second component of position `(r, k)` is the column of move `(r, k)`. -/
private theorem positions_apply1 (pm : IVec S4096x128 32) (r : Fin 4096) (k : Fin 128) :
    positions pm (ix3 r k (1 : Fin 2)) = colIdx pm (ix2 r k) := by
  unfold positions
  refine (concatenate_pair_apply_right (s₁ := S4096x128x1) (s₂ := S4096x128x1) (2 : Fin 3) _ _ _ (ix3 r k (1 : Fin 2)) rfl rfl (ix3 r k (0 : Fin 1))
    (by
      intro b hb
      match b, hb with
      | ⟨0, _⟩, _ => rfl
      | ⟨1, _⟩, _ => rfl
      | ⟨2, _⟩, hb => exact absurd rfl hb)
    rfl).trans ?_
  rw [broadcastInDim_apply _ _ _ _ (ix2 r k) (by intro a; match a with | ⟨0, _⟩ => rfl | ⟨1, _⟩ => rfl)]

/-- The table holds a one at `(R, j)` exactly when row `R` lists `j`. -/
private theorem maskArr_apply (pm : IVec S4096x128 32) (hpm : ∀ i, 0 ≤ (pm i).toInt) (R : Fin 4096) (j : Fin 10000) :
    maskArr (F := Ideal) pm (ix2 R j) = weight (fun k : Fin 128 => pm (ix2 R k)) j.val := by
  have h := scatter_moves_apply (α := Ideal .f32) scatter_S4096x10000_S4096x128x2_S4096x128_n_01_01_2_wf
    (broadcastInDim S4096x10000 ![] bcast_S_S4096x10000 (constant (F := Ideal) S_ .f32 0x00000000#32))
    (positions pm) (Ideal.ofBits .f32 0x3F800000#32) (ix2 R j)
  unfold maskArr weight
  refine h.trans ?_
  by_cases hL : Legal (fun k : Fin 128 => pm (ix2 R k)) j.val
  · rw [if_pos hL]
    split
    · exact Ideal.ofBits_one_f32
    · next hE =>
      obtain ⟨k, hk⟩ := hL
      refine (hE ⟨R, k, ?_, ?_⟩).elim
      · rw [positions_apply0, toInt_ofNat_small _ R.isLt]
      · rw [positions_apply1, colIdx_apply pm _ (hpm _)]; exact hk
  · rw [if_neg hL]
    split
    · next hE =>
      obtain ⟨r, k, h0, h1⟩ := hE
      rw [positions_apply0, toInt_ofNat_small _ r.isLt] at h0
      rw [positions_apply1, colIdx_apply pm _ (hpm _)] at h1
      have hr : r = R := Fin.ext (by exact_mod_cast h0)
      subst hr
      exact (hL ⟨k, h1⟩).elim
    · exact Ideal.ofBits_zero_f32

/-- With every move nonnegative, the reference's result at `(R, j)` is the specification's value. -/
theorem refOut_apply (x : FVec Ideal S4096x10000 .f32) (pm : IVec S4096x128 32) (hpm : ∀ i, 0 ≤ (pm i).toInt)
    (R : Fin 4096) (j : Fin 10000) :
    refOut (F := Ideal) x pm (ix2 R j) = outVal (x (ix2 R j)) (fun k : Fin 128 => pm (ix2 R k)) j.val := by
  unfold outVal keepNonzero
  rw [← maskArr_apply pm hpm R j]
  rfl

end Cert.Moves

end
-- ==== Proof.MovesBits.lean ====
/-
  A move word split into three bit fields, and the packed bitmap read back at a lane.

  A nonnegative 32-bit move word `p` is `128 * hi + 32 * w + b` with `hi = p >> 7` (the 128-wide column
  tile), `w = (p & 127) >> 5` (one of four 32-bit words of the tile) and `b = p & 31` (the bit in that
  word). For a fixed tile `hc` and word number `w` a move contributes the word `1 << b` when its tile and
  word numbers match and `0` otherwise; the bitmap word is the bitwise OR of the contributions of a row's
  128 moves. Lane `l` of the tile then picks word `l / 32` and tests bit `l % 32`. The result: the lane's
  bit is set exactly when some move of the row is the column `128 * hc + l`.
-/
import Idealize.ShloMosaic.PureOps

noncomputable section

namespace Cert.Moves

open Idealize.ShloMosaic

/-- The tile number of a move word. -/
def hiOf (p : BitVec 32) : BitVec 32 := IntOp.shrsi .vector p 7#32
/-- The position inside the tile. -/
def loOf (p : BitVec 32) : BitVec 32 := IntOp.andi p 127#32
/-- The word number inside the tile. -/
def wOf (p : BitVec 32) : BitVec 32 := IntOp.shrsi .vector (loOf p) 5#32
/-- The bit number inside the word. -/
def bOf (p : BitVec 32) : BitVec 32 := IntOp.andi (loOf p) 31#32
/-- The word with only that bit set. -/
def bitVal (p : BitVec 32) : BitVec 32 := IntOp.shli .vector 1#32 (bOf p)
/-- What a move contributes to word `w` of tile `hc`. -/
def selWord (hc w p : BitVec 32) : BitVec 32 :=
  Scalar.select (IntOp.andi (IntOp.cmpi .eq (hiOf p) hc) (IntOp.cmpi .eq (wOf p) w)) (bitVal p) 0#32

/-- A one-bit word made from a Boolean is 1 exactly when the Boolean is true. -/
private theorem ofBool_eq_one (c : Bool) : BitVec.ofBool c = 1#1 ↔ c = true := by
  cases c <;> decide

/-- A selection takes its first value exactly when the one-bit condition is 1. -/
private theorem select_eq {α : Type} (c : BitVec 1) (a b : α) :
    Scalar.select c a b = if c = 1#1 then a else b := rfl

/-- The equality comparison answers 1 exactly on equal words. -/
private theorem cmpi_eq_one {n : Nat} (a b : BitVec n) : IntOp.cmpi .eq a b = 1#1 ↔ a = b := by
  simp [IntOp.cmpi, ofBool_eq_one]

/-- The inequality comparison answers 1 exactly on different words. -/
private theorem cmpi_ne_one {n : Nat} (a b : BitVec n) : IntOp.cmpi .ne a b = 1#1 ↔ a ≠ b := by
  simp [IntOp.cmpi, ofBool_eq_one]

/-- The AND of two one-bit words is 1 exactly when both are. -/
private theorem andi_eq_one (c d : BitVec 1) : IntOp.andi c d = 1#1 ↔ c = 1#1 ∧ d = 1#1 := by
  rcases BitVec.eq_zero_or_eq_one c with rfl | rfl <;>
    rcases BitVec.eq_zero_or_eq_one d with rfl | rfl <;> decide

/-- An arithmetic right shift by an amount below 32 is the in-range shift. -/
private theorem shrsi_of_lt (x y : BitVec 32) (h : y.toNat < 32) :
    IntOp.shrsi .vector x y = x.sshiftRight y.toNat := by
  simp [IntOp.shrsi, h, BitVec.sshiftRight']

/-- A left shift by an amount below 32 is the in-range shift. -/
private theorem shli_of_lt (x y : BitVec 32) (h : y.toNat < 32) :
    IntOp.shli .vector x y = x <<< y.toNat := by
  simp [IntOp.shli, h]

/-- Masking with 127 is the remainder modulo 128. -/
private theorem and_127 (n : Nat) : n &&& 127 = n % 128 := Nat.and_two_pow_sub_one_eq_mod n 7

/-- Masking with 31 is the remainder modulo 32. -/
private theorem and_31 (n : Nat) : n &&& 31 = n % 32 := Nat.and_two_pow_sub_one_eq_mod n 5

/-- Bit `b` of `1 <<< n` is set exactly when `n = b`, for both below 32. -/
private theorem one_shl_bit (n b : Nat) (hn : n < 32) (hb : b < 32) :
    ((1#32) <<< n).getLsbD b = true ↔ n = b := by
  simp [BitVec.getLsbD_shiftLeft, BitVec.getLsbD_one]
  omega

/-- A word that reads as a nonnegative integer has its top bit clear. -/
private theorem msb_of_nonneg (p : BitVec 32) (hp : 0 ≤ p.toInt) : p.msb = false := by
  rw [BitVec.msb_eq_false_iff_two_mul_lt]
  rw [BitVec.toInt_eq_toNat_cond] at hp
  split at hp <;> omega

/-- `x &&& 1` is nonzero exactly when the lowest bit of `x` is set. -/
private theorem and_one_ne_zero (x : BitVec 32) : x &&& 1#32 ≠ 0#32 ↔ x.getLsbD 0 = true := by
  rw [Ne, ← BitVec.toNat_inj]
  simp [BitVec.getLsbD, Nat.and_one_is_mod]

/-- The position inside the tile is the word modulo 128. -/
private theorem loOf_toNat (p : BitVec 32) : (loOf p).toNat = p.toNat % 128 := by
  simp [loOf, IntOp.andi, and_127]

/-- The position inside the tile has its top bit clear. -/
private theorem loOf_msb (p : BitVec 32) : (loOf p).msb = false := by
  rw [BitVec.msb_eq_false_iff_two_mul_lt, loOf_toNat]
  omega

/-- The bit number is the word modulo 32. -/
private theorem bOf_toNat (p : BitVec 32) : (bOf p).toNat = p.toNat % 32 := by
  simp [bOf, IntOp.andi, loOf_toNat, and_31]

/-- The word number is `(p mod 128) / 32`. -/
private theorem wOf_toNat (p : BitVec 32) : (wOf p).toNat = p.toNat % 128 / 32 := by
  unfold wOf
  rw [shrsi_of_lt _ _ (by decide), BitVec.sshiftRight_eq_of_msb_false (loOf_msb p)]
  simp [loOf_toNat, Nat.shiftRight_eq_div_pow]

/-- The tile number of a word with a clear top bit is `p / 128`. -/
private theorem hiOf_toNat (p : BitVec 32) (hp : p.msb = false) : (hiOf p).toNat = p.toNat / 128 := by
  unfold hiOf
  rw [shrsi_of_lt _ _ (by decide), BitVec.sshiftRight_eq_of_msb_false hp]
  simp [Nat.shiftRight_eq_div_pow]

/-- A contribution has bit `b` set exactly when the move is in that tile and word and its bit number is `b`. -/
theorem selWord_bit (hc w p : BitVec 32) (b : Nat) (hb : b < 32) :
    (selWord hc w p).getLsbD b = true ↔ hiOf p = hc ∧ wOf p = w ∧ (bOf p).toNat = b := by
  have hbn : (bOf p).toNat < 32 := by rw [bOf_toNat]; omega
  unfold selWord
  rw [select_eq]
  by_cases hc1 : hiOf p = hc ∧ wOf p = w
  · have hone : IntOp.andi (IntOp.cmpi .eq (hiOf p) hc) (IntOp.cmpi .eq (wOf p) w) = 1#1 := by
      rw [andi_eq_one, cmpi_eq_one, cmpi_eq_one]; exact hc1
    rw [if_pos hone, bitVal, shli_of_lt _ _ hbn, one_shl_bit _ _ hbn hb]
    exact ⟨fun h => ⟨hc1.1, hc1.2, h⟩, fun h => h.2.2⟩
  · have hne : ¬ IntOp.andi (IntOp.cmpi .eq (hiOf p) hc) (IntOp.cmpi .eq (wOf p) w) = 1#1 := by
      rw [andi_eq_one, cmpi_eq_one, cmpi_eq_one]; exact hc1
    rw [if_neg hne]
    constructor
    · intro h; simp at h
    · intro h; exact absurd ⟨h.1, h.2.1⟩ hc1

/-- The three fields determine a nonnegative move word, and conversely. -/
theorem fields_iff (p hc : BitVec 32) (l : Nat) (hp : 0 ≤ p.toInt) (hh : hc.toNat < 79) (hl : l < 128) :
    (hiOf p = hc ∧ wOf p = BitVec.ofNat 32 (l / 32) ∧ (bOf p).toNat = l % 32) ↔ p.toInt = ((128 * hc.toNat + l : Nat) : Int) := by
  have hm : p.msb = false := msb_of_nonneg p hp
  have hlt : 2 * p.toNat < 2 ^ 32 := (BitVec.msb_eq_false_iff_two_mul_lt).1 hm
  have hint : p.toInt = (p.toNat : Int) := by
    rw [BitVec.toInt_eq_toNat_cond]; split <;> omega
  rw [← BitVec.toNat_inj, ← BitVec.toNat_inj, hiOf_toNat p hm, wOf_toNat, bOf_toNat,
    BitVec.toNat_ofNat, hint]
  omega

/-- The word a lane reads: word 3, 2 or 1 when the lane's word number says so, else word 0. -/
def laneWord (lw W0 W1 W2 W3 : BitVec 32) : BitVec 32 :=
  Scalar.select (IntOp.cmpi .eq (IntOp.shrsi .vector lw 5#32) 3#32) W3
    (Scalar.select (IntOp.cmpi .eq (IntOp.shrsi .vector lw 5#32) 2#32) W2
      (Scalar.select (IntOp.cmpi .eq (IntOp.shrsi .vector lw 5#32) 1#32) W1 W0))

/-- The lane's bit of the word it reads, as a one-bit condition. -/
def laneBit (lw ws : BitVec 32) : BitVec 1 :=
  IntOp.cmpi .ne (IntOp.andi (IntOp.shrsi .vector ws (IntOp.andi lw 31#32)) 1#32) 0#32

/-- The word number of a lane below 128. -/
private theorem lane_hi (l : Nat) (hl : l < 128) :
    IntOp.shrsi .vector (BitVec.ofNat 32 l) 5#32 = BitVec.ofNat 32 (l / 32) := by
  have hm : (BitVec.ofNat 32 l).msb = false := by
    rw [BitVec.msb_eq_false_iff_two_mul_lt, BitVec.toNat_ofNat]; omega
  rw [shrsi_of_lt _ _ (by decide), BitVec.sshiftRight_eq_of_msb_false hm, ← BitVec.toNat_inj]
  simp [Nat.shiftRight_eq_div_pow]
  omega

/-- The bit number of a lane below 128. -/
private theorem lane_lo (l : Nat) (hl : l < 128) :
    (IntOp.andi (BitVec.ofNat 32 l) 31#32).toNat = l % 32 := by
  simp [IntOp.andi, and_31]

/-- A lane below 128 reads the word whose number is `l / 32`. -/
private theorem laneWord_eq (l : Nat) (hl : l < 128) (W : Fin 4 → BitVec 32) :
    laneWord (BitVec.ofNat 32 l) (W 0) (W 1) (W 2) (W 3) = W ⟨l / 32, by omega⟩ := by
  unfold laneWord
  rw [lane_hi l hl]
  simp only [select_eq, cmpi_eq_one]
  have h4 : l / 32 = 0 ∨ l / 32 = 1 ∨ l / 32 = 2 ∨ l / 32 = 3 := by omega
  rcases h4 with h | h | h | h <;> simp [h]

/-- The lane's test reads bit `s` of the word when the masked lane number is `s < 32`. -/
private theorem laneBit_eq (lw ws : BitVec 32) (s : Nat) (hs : (IntOp.andi lw 31#32).toNat = s)
    (hs32 : s < 32) : laneBit lw ws = 1#1 ↔ ws.getLsbD s = true := by
  unfold laneBit
  rw [cmpi_ne_one, shrsi_of_lt _ _ (by omega), hs]
  show (ws.sshiftRight s) &&& 1#32 ≠ 0#32 ↔ _
  rw [and_one_ne_zero, BitVec.getLsbD_sshiftRight]
  simp [hs32]

/-- Lane `l` tests bit `l % 32` of word `l / 32`. -/
theorem laneBit_iff (l : Nat) (hl : l < 128) (W : Fin 4 → BitVec 32) :
    laneBit (BitVec.ofNat 32 l) (laneWord (BitVec.ofNat 32 l) (W 0) (W 1) (W 2) (W 3)) = 1#1
      ↔ (W ⟨l / 32, by omega⟩).getLsbD (l % 32) = true := by
  rw [laneWord_eq l hl W]
  exact laneBit_eq _ _ (l % 32) (lane_lo l hl) (by omega)

/-- The row theorem: with each bitmap word the OR of the row's contributions (stated bit by bit), lane `l` of tile
    `hc` is set exactly when some move of the row is the column `128 * hc + l`. -/
theorem lane_legal_iff (row : Fin 128 → BitVec 32) (hrow : ∀ k, 0 ≤ (row k).toInt) (hc : BitVec 32) (hh : hc.toNat < 79)
    (l : Nat) (hl : l < 128) (W : Fin 4 → BitVec 32)
    (hW : ∀ (w : Fin 4) (b : Nat), b < 32 →
      ((W w).getLsbD b = true ↔ ∃ k, (selWord hc (BitVec.ofNat 32 w.val) (row k)).getLsbD b = true)) :
    laneBit (BitVec.ofNat 32 l) (laneWord (BitVec.ofNat 32 l) (W 0) (W 1) (W 2) (W 3)) = 1#1
      ↔ ∃ k, (row k).toInt = ((128 * hc.toNat + l : Nat) : Int) := by
  rw [laneBit_iff l hl W, hW ⟨l / 32, by omega⟩ (l % 32) (by omega)]
  constructor
  · rintro ⟨k, hk⟩
    refine ⟨k, ?_⟩
    rw [selWord_bit _ _ _ _ (by omega)] at hk
    exact (fields_iff (row k) hc l (hrow k) hh hl).1 hk
  · rintro ⟨k, hk⟩
    exact ⟨k, (selWord_bit _ _ _ _ (by omega)).2 ((fields_iff (row k) hc l (hrow k) hh hl).2 hk)⟩

end Cert.Moves

end
-- ==== Proof.MovesOrTree.lean ====
/-
  One halving step of a lane-wise OR reduction.

  A row of `m = n + n` words is folded to `n` words by OR-ing its left half onto its right half. Bit by bit,
  "some word of the row has the bit set" is unchanged by the step; after seven steps from 128 words one word is
  left, whose bits say which bits occur anywhere in the row.
-/
import Idealize.ShloMosaic.PureOps
import Idealize.ShloMosaic.Lib.ValueIdx
import Idealize.ShloMosaic.Lib.Pipeline.Value

noncomputable section

namespace Cert.Moves

open Idealize.ShloMosaic Idealize.ShloMosaic.ValueIdx

/-- The folded row has a bit somewhere exactly when the row had it somewhere. -/
theorem or_halves (n m : Nat) (hm : m = n + n) (v : IVec (⟨2, ![256, m]⟩ : Shape) 32)
    (hlo : (⟨2, ![256, m]⟩ : Shape).Slices ![0, 0] ⟨2, ![256, n]⟩)
    (hhi : (⟨2, ![256, m]⟩ : Shape).Slices ![0, n] ⟨2, ![256, n]⟩) (r : Fin 256) (b : Nat) :
    (∃ c : Fin n, ((ori (extractStridedSlice ⟨2, ![256, n]⟩ ![0, 0] v hlo)
        (extractStridedSlice ⟨2, ![256, n]⟩ ![0, n] v hhi)) (ix2 r c)).getLsbD b = true)
      ↔ ∃ c : Fin m, (v (ix2 r c)).getLsbD b = true := by
  have elo : ∀ c : Fin n, extractStridedSlice ⟨2, ![256, n]⟩ ![0, 0] v hlo (ix2 r c) = v (ix2 r ⟨c.val, by omega⟩) := fun c =>
    extractStridedSlice_apply _ _ _ _ _ (fun a => match a with
      | ⟨0, _⟩ => by show r.val = 0 + r.val; omega
      | ⟨1, _⟩ => by show c.val = 0 + c.val; omega)
  have ehi : ∀ c : Fin n, extractStridedSlice ⟨2, ![256, n]⟩ ![0, n] v hhi (ix2 r c) = v (ix2 r ⟨n + c.val, by omega⟩) := fun c =>
    extractStridedSlice_apply _ _ _ _ _ (fun a => match a with
      | ⟨0, _⟩ => by show r.val = 0 + r.val; omega
      | ⟨1, _⟩ => by show n + c.val = n + c.val; rfl)
  have e : ∀ c : Fin n, (ori (extractStridedSlice ⟨2, ![256, n]⟩ ![0, 0] v hlo)
        (extractStridedSlice ⟨2, ![256, n]⟩ ![0, n] v hhi)) (ix2 r c)
      = v (ix2 r ⟨c.val, by omega⟩) ||| v (ix2 r ⟨n + c.val, by omega⟩) := fun c => by
    show IntOp.ori _ _ = _
    rw [elo, ehi]; rfl
  constructor
  · rintro ⟨c, hc⟩
    rw [e, BitVec.getLsbD_or, Bool.or_eq_true] at hc
    rcases hc with h | h
    · exact ⟨_, h⟩
    · exact ⟨_, h⟩
  · rintro ⟨c, hc⟩
    by_cases hlt : c.val < n
    · refine ⟨⟨c.val, hlt⟩, ?_⟩
      rw [e, BitVec.getLsbD_or, Bool.or_eq_true]
      exact Or.inl hc
    · refine ⟨⟨c.val - n, by omega⟩, ?_⟩
      rw [e, BitVec.getLsbD_or, Bool.or_eq_true]
      refine Or.inr ?_
      have : (⟨n + (c.val - n), by omega⟩ : Fin m) = c := Fin.ext (by show n + (c.val - n) = c.val; omega)
      rw [this]; exact hc

end Cert.Moves

end
-- ==== Proof.MovesTile.lean ====
/-
  One 128-column tile of a block, as a function of the block's two inputs, and its value at an index.

  For tile `hc` the body builds four bitmap words per row: word `w` is the OR, over the row's 128 moves, of the
  one-bit word of each move whose tile number is `hc` and whose word number is `w` (seven halving steps). A lane
  then reads the word its lane number names, tests its own bit, turns the bit into the number one or zero,
  multiplies the input by it and replaces a zero product by minus infinity. Read at row `r`, lane `l`, with every
  move of the row nonnegative, this is the specification's value at column `128 * hc + l`.
-/
import proofs.«416086_j90056874262977_2_alg».proof.KernelIdeal
import proofs.«416086_j90056874262977_2_alg».proof.Proof.MovesSpec
import proofs.«416086_j90056874262977_2_alg».proof.Proof.MovesBits
import proofs.«416086_j90056874262977_2_alg».proof.Proof.MovesOrTree
import Idealize.ShloMosaic.Lib.ValueIdx
import Idealize.ShloMosaic.Lib.Pipeline.Value

noncomputable section

open scoped Classical

namespace Cert.Moves

open Idealize.ShloMosaic Idealize.ShloMosaic.ValueIdx
open Cert.KernelIdeal Cert.KernelIdeal.Facts₀ Cert.KernelIdeal.Facts

variable {F : FTy → Type} [FloatOps F] [Cert.KernelIdeal.Facts]

/-! ## The block's moves, field by field -/

/-- Tile numbers. -/
def hiVec (pm : IVec S256x128 32) : IVec S256x128 32 := shrsi pm (broadcast S256x128 7#32)
/-- Positions inside the tile. -/
def loVec (pm : IVec S256x128 32) : IVec S256x128 32 := andi pm (broadcast S256x128 127#32)
/-- Word numbers. -/
def wVec (pm : IVec S256x128 32) : IVec S256x128 32 := shrsi (loVec pm) (broadcast S256x128 5#32)
/-- One-bit words. -/
def bitVec (pm : IVec S256x128 32) : IVec S256x128 32 :=
  shli (broadcast S256x128 1#32) (andi (loVec pm) (broadcast S256x128 31#32))
/-- "The move's word number is `w`". -/
def isW (pm : IVec S256x128 32) (w : BitVec 32) : IVec S256x128 1 := cmpi .eq (wVec pm) (broadcast S256x128 w)

/-- What each move contributes to word `w` of tile `hc`. -/
def selVec (hc w : BitVec 32) (pm : IVec S256x128 32) : IVec S256x128 32 :=
  select (andi (cmpi .eq (hiVec pm) (broadcast S256x128 hc)) (isW pm w)) (bitVec pm) (broadcast S256x128 0#32)

/-- The OR of a row's 128 words by seven halving steps. -/
def orTree (v : IVec S256x128 32) : IVec S256x1 32 :=
  let a64 : IVec S256x64 32 := ori (extractStridedSlice S256x64 ![0, 0] v slices_S256x128_o0_0_S256x64) (extractStridedSlice S256x64 ![0, 64] v slices_S256x128_o0_64_S256x64)
  let a32 : IVec S256x32 32 := ori (extractStridedSlice S256x32 ![0, 0] a64 slices_S256x64_o0_0_S256x32) (extractStridedSlice S256x32 ![0, 32] a64 slices_S256x64_o0_32_S256x32)
  let a16 : IVec S256x16 32 := ori (extractStridedSlice S256x16 ![0, 0] a32 slices_S256x32_o0_0_S256x16) (extractStridedSlice S256x16 ![0, 16] a32 slices_S256x32_o0_16_S256x16)
  let a8 : IVec S256x8 32 := ori (extractStridedSlice S256x8 ![0, 0] a16 slices_S256x16_o0_0_S256x8) (extractStridedSlice S256x8 ![0, 8] a16 slices_S256x16_o0_8_S256x8)
  let a4 : IVec S256x4 32 := ori (extractStridedSlice S256x4 ![0, 0] a8 slices_S256x8_o0_0_S256x4) (extractStridedSlice S256x4 ![0, 4] a8 slices_S256x8_o0_4_S256x4)
  let a2 : IVec S256x2 32 := ori (extractStridedSlice S256x2 ![0, 0] a4 slices_S256x4_o0_0_S256x2) (extractStridedSlice S256x2 ![0, 2] a4 slices_S256x4_o0_2_S256x2)
  ori (extractStridedSlice S256x1 ![0, 0] a2 slices_S256x2_o0_0_S256x1) (extractStridedSlice S256x1 ![0, 1] a2 slices_S256x2_o0_1_S256x1)

/-- Bitmap word `w` of tile `hc`, one per row. -/
def wordOf (hc w : BitVec 32) (pm : IVec S256x128 32) : IVec S256x1 32 := orTree (selVec hc w pm)

/-! ## The lanes of a tile -/

/-- The tile's result over `n` lanes from its input columns and its four bitmap words. -/
def laneOut (n : Nat) (hi : (⟨2, ![256, n]⟩ : Shape).Iotas .tc 32 [1]) (hb : S256x1.Broadcasts ⟨2, ![256, n]⟩)
    (xs : FVec F ⟨2, ![256, n]⟩ .f32) (W0 W1 W2 W3 : IVec S256x1 32) : FVec F ⟨2, ![256, n]⟩ .f32 :=
  let io : IVec ⟨2, ![256, n]⟩ 32 := iota .tc ⟨2, ![256, n]⟩ 32 [1] hi
  let wl : IVec ⟨2, ![256, n]⟩ 32 := shrsi io (broadcast ⟨2, ![256, n]⟩ 5#32)
  let bl : IVec ⟨2, ![256, n]⟩ 32 := andi io (broadcast ⟨2, ![256, n]⟩ 31#32)
  let ws : IVec ⟨2, ![256, n]⟩ 32 :=
    select (cmpi .eq wl (broadcast ⟨2, ![256, n]⟩ 3#32)) (broadcastTo ⟨2, ![256, n]⟩ (shapeCast S256x1 W3 shapeCasts_S256x1_S256x1) hb)
      (select (cmpi .eq wl (broadcast ⟨2, ![256, n]⟩ 2#32)) (broadcastTo ⟨2, ![256, n]⟩ (shapeCast S256x1 W2 shapeCasts_S256x1_S256x1) hb)
        (select (cmpi .eq wl (broadcast ⟨2, ![256, n]⟩ 1#32)) (broadcastTo ⟨2, ![256, n]⟩ (shapeCast S256x1 W1 shapeCasts_S256x1_S256x1) hb)
          (broadcastTo ⟨2, ![256, n]⟩ (shapeCast S256x1 W0 shapeCasts_S256x1_S256x1) hb)))
  let bit : IVec ⟨2, ![256, n]⟩ 1 := cmpi .ne (andi (shrsi ws bl) (broadcast ⟨2, ![256, n]⟩ 1#32)) (broadcast ⟨2, ![256, n]⟩ 0#32)
  let f : FVec F ⟨2, ![256, n]⟩ .f32 := mulf xs (sitofp .f32 (extui 32 bit natLt_1_32))
  select (cmpf .oeq f (broadcast ⟨2, ![256, n]⟩ (Scalar.ofBits .f32 0x00000000#32)))
    (broadcast ⟨2, ![256, n]⟩ (Scalar.ofBits .f32 0xFF800000#32)) f

/-- Tile `hc` of a block: `n` lanes starting at column `off`. -/
def tileOut (n : Nat) (hi : (⟨2, ![256, n]⟩ : Shape).Iotas .tc 32 [1]) (hb : S256x1.Broadcasts ⟨2, ![256, n]⟩)
    (off : Nat) (hs : S256x10000.Slices ![0, off] ⟨2, ![256, n]⟩) (hc : BitVec 32)
    (x0 : FVec F S256x10000 .f32) (x1 : IVec S256x128 32) : FVec F ⟨2, ![256, n]⟩ .f32 :=
  laneOut n hi hb (extractStridedSlice ⟨2, ![256, n]⟩ ![0, off] x0 hs)
    (wordOf hc 0#32 x1) (wordOf hc 1#32 x1) (wordOf hc 2#32 x1) (wordOf hc 3#32 x1)

/-! ## Read at an index -/

/-- A bitmap word has a bit exactly when some move of the row contributes it. -/
theorem wordOf_bit (hc w : BitVec 32) (pm : IVec S256x128 32) (r : Fin 256) (b : Nat) :
    (wordOf hc w pm (ix2 r (0 : Fin 1))).getLsbD b = true
      ↔ ∃ k : Fin 128, (selWord hc w (pm (ix2 r k))).getLsbD b = true := by
  unfold wordOf orTree
  have one : ∀ a : IVec S256x1 32,
      ((a (ix2 r (0 : Fin 1))).getLsbD b = true ↔ ∃ c : Fin 1, (a (ix2 r c)).getLsbD b = true) := fun a =>
    ⟨fun h => ⟨0, h⟩, fun ⟨c, h⟩ => by have hc0 : c = 0 := Subsingleton.elim _ _; subst hc0; exact h⟩
  refine (one _).trans ?_
  refine (or_halves 1 2 rfl _ slices_S256x2_o0_0_S256x1 slices_S256x2_o0_1_S256x1 r b).trans ?_
  refine (or_halves 2 4 rfl _ slices_S256x4_o0_0_S256x2 slices_S256x4_o0_2_S256x2 r b).trans ?_
  refine (or_halves 4 8 rfl _ slices_S256x8_o0_0_S256x4 slices_S256x8_o0_4_S256x4 r b).trans ?_
  refine (or_halves 8 16 rfl _ slices_S256x16_o0_0_S256x8 slices_S256x16_o0_8_S256x8 r b).trans ?_
  refine (or_halves 16 32 rfl _ slices_S256x32_o0_0_S256x16 slices_S256x32_o0_16_S256x16 r b).trans ?_
  refine (or_halves 32 64 rfl _ slices_S256x64_o0_0_S256x32 slices_S256x64_o0_32_S256x32 r b).trans ?_
  refine (or_halves 64 128 rfl _ slices_S256x128_o0_0_S256x64 slices_S256x128_o0_64_S256x64 r b).trans ?_
  exact Iff.rfl

/-- The zero test and the replacement by minus infinity, at one index. -/
theorem keep_apply {s : Shape} (f : FVec Ideal s .f32) (i : s.Idx) :
    (select (cmpf .oeq f (broadcast s (Scalar.ofBits (F := Ideal) .f32 0x00000000#32)))
      (broadcast s (Scalar.ofBits (F := Ideal) .f32 0xFF800000#32)) f) i = keepNonzero (f i) := rfl

/-- A tile at row `r`, lane `l`: the specification's value at column `off + l`. -/
theorem tileOut_apply (n : Nat) (hn : n ≤ 128) (hi : (⟨2, ![256, n]⟩ : Shape).Iotas .tc 32 [1])
    (hb : S256x1.Broadcasts ⟨2, ![256, n]⟩) (off : Nat) (hs : S256x10000.Slices ![0, off] ⟨2, ![256, n]⟩)
    (hc : BitVec 32) (hh : hc.toNat < 79) (hoff : off = 128 * hc.toNat) (hcol : off + n ≤ 10000)
    (x0 : FVec Ideal S256x10000 .f32) (x1 : IVec S256x128 32) (r : Fin 256) (l : Fin n)
    (hrow : ∀ k : Fin 128, 0 ≤ (x1 (ix2 r k)).toInt) :
    tileOut (F := Ideal) n hi hb off hs hc x0 x1 (ix2 r l)
      = outVal (x0 (ix2 r (⟨off + l.val, by omega⟩ : Fin 10000))) (fun k : Fin 128 => x1 (ix2 r k)) (off + l.val) := by
  have hl : l.val < 128 := by omega
  -- the input columns
  have hxs : extractStridedSlice ⟨2, ![256, n]⟩ ![0, off] x0 hs (ix2 r l) = x0 (ix2 r (⟨off + l.val, by omega⟩ : Fin 10000)) :=
    extractStridedSlice_apply _ _ _ _ _ (fun a => match a with
      | ⟨0, _⟩ => by show r.val = 0 + r.val; omega
      | ⟨1, _⟩ => by show off + l.val = off + l.val; rfl)
  -- the lane number
  have hio : iota .tc ⟨2, ![256, n]⟩ 32 [1] hi (ix2 r l) = BitVec.ofNat 32 l.val := iota_single_apply _ _ _ _ _ _
  -- a word broadcast along the lanes
  have hbc : ∀ W : IVec S256x1 32,
      broadcastTo ⟨2, ![256, n]⟩ (shapeCast S256x1 W shapeCasts_S256x1_S256x1) hb (ix2 r l) = W (ix2 r (0 : Fin 1)) := fun W => by
    rw [shapeCast_self]
    exact broadcastTo_apply _ _ _ _ (fun a => match a with
      | ⟨0, _⟩ => by
          show r.val = if (256 : Nat) = 1 then 0 else r.val
          rw [if_neg (by decide)]
      | ⟨1, _⟩ => by
          show (0 : Nat) = if (1 : Nat) = 1 then 0 else l.val
          rw [if_pos rfl])
  -- the lane's bit says whether the column is listed
  have hbit : laneBit (BitVec.ofNat 32 l.val)
        (laneWord (BitVec.ofNat 32 l.val) (wordOf hc 0#32 x1 (ix2 r (0 : Fin 1))) (wordOf hc 1#32 x1 (ix2 r (0 : Fin 1)))
          (wordOf hc 2#32 x1 (ix2 r (0 : Fin 1))) (wordOf hc 3#32 x1 (ix2 r (0 : Fin 1)))) = 1#1
      ↔ Legal (fun k : Fin 128 => x1 (ix2 r k)) (off + l.val) := by
    have := lane_legal_iff (fun k : Fin 128 => x1 (ix2 r k)) hrow hc hh l.val hl
      (fun w : Fin 4 => wordOf hc (BitVec.ofNat 32 w.val) x1 (ix2 r (0 : Fin 1)))
      (fun w b _ => wordOf_bit hc (BitVec.ofNat 32 w.val) x1 r b)
    rw [hoff]
    exact this
  have h1 : FloatOps.sitofp (F := Ideal) .f32 (BitVec.setWidth 32 (1#1 : BitVec 1)) = (1 : EReal) := by
    show (((BitVec.setWidth 32 (1#1 : BitVec 1)).toInt : ℝ) : EReal) = 1
    norm_num [show (BitVec.setWidth 32 (1#1 : BitVec 1)).toInt = 1 from by decide]
  have h0 : FloatOps.sitofp (F := Ideal) .f32 (BitVec.setWidth 32 (0#1 : BitVec 1)) = (0 : EReal) := by
    show (((BitVec.setWidth 32 (0#1 : BitVec 1)).toInt : ℝ) : EReal) = 0
    norm_num [show (BitVec.setWidth 32 (0#1 : BitVec 1)).toInt = 0 from by decide]
  unfold tileOut laneOut
  dsimp only
  rw [keep_apply]
  unfold outVal
  congr 1
  rw [mulf_apply, hxs]
  congr 1
  show FloatOps.sitofp (F := Ideal) .f32 (BitVec.setWidth 32 (laneBit _ (laneWord _ _ _ _ _))) = _
  rw [hio, hbc, hbc, hbc, hbc]
  unfold weight
  by_cases hL : Legal (fun k : Fin 128 => x1 (ix2 r k)) (off + l.val)
  · rw [if_pos hL, hbit.mpr hL]; exact h1
  · rw [if_neg hL, eq_zero_of_ne_one (fun h => hL (hbit.mp h))]; exact h0

end Cert.Moves

end
-- ==== Proof.MovesBlock.lean ====
/-
  A block of the output, as one function of the block's two inputs.

  The body stores the output block in 79 pieces: 78 tiles of 128 columns and a last tile of 16. Each stored piece is
  the tile function of the two loaded inputs (the input block, the block of moves) at that tile's number and first
  column, so at every index a piece agrees with one function of the whole block: the specification's value at that
  row and column, provided every move of the block is nonnegative. The pieces cover the block; reading the pieces
  back gives that function.
-/
import proofs.«416086_j90056874262977_2_alg».proof.Proof.Gen.KernelIdeal.Frame
import proofs.«416086_j90056874262977_2_alg».proof.Proof.MovesTile
import Idealize.ShloMosaic.Lib.ValueIdx
import Idealize.ShloMosaic.Lib.Pipeline.Value

set_option maxRecDepth 16384

noncomputable section

open scoped Classical

namespace Cert.Moves

open Idealize.ShloMosaic Idealize.ShloMosaic.TcCoe Idealize.ShloMosaic.ValueIdx Idealize.ShloMosaic.Tactic
open Cert.KernelIdeal Cert.KernelIdeal.Gen Cert.KernelIdeal.Facts₀ Cert.KernelIdeal.Facts

/-- The block's result: at row `r`, column `j`, the specification's value of the block's row `r`. -/
def blockG (x0 : FVec Ideal S256x10000 .f32) (x1 : IVec S256x128 32) : S256x10000.Idx → EReal :=
  fun y => outVal (x0 y) (fun k : Fin 128 => x1 (ix2 (y 0) k)) (y 1).val

/-- The zero offsets of a whole-buffer load. -/
theorem zero_offsets : (![0, 0] : Fin 2 → Nat) = fun _ => 0 := by
  funext a; match a with | ⟨0, _⟩ => rfl | ⟨1, _⟩ => rfl

/-- A tile stored at columns `off … off + n - 1` holds the block's function on its rectangle. -/
theorem tile_piece (n : Nat) (hn : n ≤ 128) (hi : (⟨2, ![256, n]⟩ : Shape).Iotas .tc 32 [1])
    (hb : S256x1.Broadcasts ⟨2, ![256, n]⟩) (off : Nat) (hs : S256x10000.Slices ![0, off] ⟨2, ![256, n]⟩)
    (hc : BitVec 32) (hh : hc.toNat < 79) (hoff : off = 128 * hc.toNat) (hcol : off + n ≤ 10000)
    (inb : ∀ a, (![0, off] : Fin S256x10000.rank → Nat) a + (![256, n] : Fin S256x10000.rank → Nat) a ≤ S256x10000.size a)
    (x0 : FVec Ideal S256x10000 .f32) (x1 : IVec S256x128 32) (hx1 : ∀ k, 0 ≤ (x1 k).toInt)
    (x : (Rect.unit (s := S256x10000) ![0, off] ![256, n] inb).shape.Idx) :
    tileOut (F := Ideal) n hi hb off hs hc x0 x1 x
      = blockG x0 x1 ((Rect.unit (s := S256x10000) ![0, off] ![256, n] inb).emb x) := by
  obtain ⟨r, l, rfl⟩ : ∃ (r : Fin 256) (l : Fin n), x = ix2 r l := ⟨x 0, x 1, eq_ix2 x⟩
  have hemb : (Rect.unit (s := S256x10000) ![0, off] ![256, n] inb).emb (ix2 r l)
      = ix2 r (⟨off + l.val, by omega⟩ : Fin 10000) := by
    funext a
    match a with
    | ⟨0, _⟩ => exact Fin.ext (by show 0 + 1 * r.val = r.val; omega)
    | ⟨1, _⟩ => exact Fin.ext (by show off + 1 * l.val = off + l.val; omega)
  rw [hemb, tileOut_apply n hn hi hb off hs hc hh hoff hcol x0 x1 r l (fun k => hx1 _)]
  rfl

set_option hygiene false in
/-- One stored tile: open the names the run gave its values, read the two whole-buffer loads back as the inputs,
    recognise the tile function at this tile's constants, and apply its value. -/
local macro "tile_case" n:num hi:ident hb:ident off:num hs:ident hc:num : tactic =>
  `(tactic| (
    sl_unfold_run_names
    simp only [View.readAt_eq_ld, harg1.read_unread, harg2.read_unread, View.ld_unit_zero (S := S256x10000) zero_offsets,
      View.ld_unit_zero (S := S256x128) zero_offsets]
    exact (congrFun (show _ = tileOut (F := Ideal) $n $hi $hb $off $hs (BitVec.ofNat 32 $hc) x0 x1 from rfl) x).trans
      (tile_piece $n (by omega) $hi $hb $off $hs (BitVec.ofNat 32 $hc) (by decide) (by decide) (by omega) _ x0 x1 hx1 x)))

set_option maxHeartbeats 8000000 in
/-- Every stored piece agrees with the block's function on its rectangle (one row of the table per tile, last
    stored first). -/
theorem pieces_agree (c : Dev nD) (i : grid0.Coords) (arg1 : Memref sig .tc .vmem S256x10000 .f32) (harg1 : arg1.IsWhole)
    (arg2 : Memref sig .tc .vmem S256x128 .i32) (harg2 : arg2.IsWhole) (arg3 : Memref sig .tc .vmem S256x10000 .f32)
    (harg3 : arg3.IsWhole) (x0 : Vec Ideal S256x10000 .f32) (x1 : Vec Ideal S256x128 .i32)
    (hx1 : ∀ k, 0 ≤ (x1 k).toInt) :
    ∀ p ∈ (kernelRun0_A (F := Ideal) c i arg1 harg1 arg2 harg2 arg3 harg3 x0 x1).1,
      ∀ x : p.1.shape.Idx, p.2 x = blockG x0 x1 (p.1.emb x) := by
  unfold kernelRun0_A
  dsimp only
  refine List.forall_mem_cons.2 ⟨fun x => ?_, ?_⟩
  · tile_case 16 Facts₀.iota_S256x16_d1_w32 Facts₀.broadcasts_S256x1_S256x16 9984 Facts₀.slices_S256x10000_o0_9984_S256x16 78
  refine List.forall_mem_cons.2 ⟨fun x => ?_, ?_⟩
  · tile_case 128 Facts₀.iota_S256x128_d1_w32 Facts₀.broadcasts_S256x1_S256x128 9856 Facts₀.slices_S256x10000_o0_9856_S256x128 77
  refine List.forall_mem_cons.2 ⟨fun x => ?_, ?_⟩
  · tile_case 128 Facts₀.iota_S256x128_d1_w32 Facts₀.broadcasts_S256x1_S256x128 9728 Facts₀.slices_S256x10000_o0_9728_S256x128 76
  refine List.forall_mem_cons.2 ⟨fun x => ?_, ?_⟩
  · tile_case 128 Facts₀.iota_S256x128_d1_w32 Facts₀.broadcasts_S256x1_S256x128 9600 Facts₀.slices_S256x10000_o0_9600_S256x128 75
  refine List.forall_mem_cons.2 ⟨fun x => ?_, ?_⟩
  · tile_case 128 Facts₀.iota_S256x128_d1_w32 Facts₀.broadcasts_S256x1_S256x128 9472 Facts₀.slices_S256x10000_o0_9472_S256x128 74
  refine List.forall_mem_cons.2 ⟨fun x => ?_, ?_⟩
  · tile_case 128 Facts₀.iota_S256x128_d1_w32 Facts₀.broadcasts_S256x1_S256x128 9344 Facts₀.slices_S256x10000_o0_9344_S256x128 73
  refine List.forall_mem_cons.2 ⟨fun x => ?_, ?_⟩
  · tile_case 128 Facts₀.iota_S256x128_d1_w32 Facts₀.broadcasts_S256x1_S256x128 9216 Facts₀.slices_S256x10000_o0_9216_S256x128 72
  refine List.forall_mem_cons.2 ⟨fun x => ?_, ?_⟩
  · tile_case 128 Facts₀.iota_S256x128_d1_w32 Facts₀.broadcasts_S256x1_S256x128 9088 Facts₀.slices_S256x10000_o0_9088_S256x128 71
  refine List.forall_mem_cons.2 ⟨fun x => ?_, ?_⟩
  · tile_case 128 Facts₀.iota_S256x128_d1_w32 Facts₀.broadcasts_S256x1_S256x128 8960 Facts₀.slices_S256x10000_o0_8960_S256x128 70
  refine List.forall_mem_cons.2 ⟨fun x => ?_, ?_⟩
  · tile_case 128 Facts₀.iota_S256x128_d1_w32 Facts₀.broadcasts_S256x1_S256x128 8832 Facts₀.slices_S256x10000_o0_8832_S256x128 69
  refine List.forall_mem_cons.2 ⟨fun x => ?_, ?_⟩
  · tile_case 128 Facts₀.iota_S256x128_d1_w32 Facts₀.broadcasts_S256x1_S256x128 8704 Facts₀.slices_S256x10000_o0_8704_S256x128 68
  refine List.forall_mem_cons.2 ⟨fun x => ?_, ?_⟩
  · tile_case 128 Facts₀.iota_S256x128_d1_w32 Facts₀.broadcasts_S256x1_S256x128 8576 Facts₀.slices_S256x10000_o0_8576_S256x128 67
  refine List.forall_mem_cons.2 ⟨fun x => ?_, ?_⟩
  · tile_case 128 Facts₀.iota_S256x128_d1_w32 Facts₀.broadcasts_S256x1_S256x128 8448 Facts₀.slices_S256x10000_o0_8448_S256x128 66
  refine List.forall_mem_cons.2 ⟨fun x => ?_, ?_⟩
  · tile_case 128 Facts₀.iota_S256x128_d1_w32 Facts₀.broadcasts_S256x1_S256x128 8320 Facts₀.slices_S256x10000_o0_8320_S256x128 65
  refine List.forall_mem_cons.2 ⟨fun x => ?_, ?_⟩
  · tile_case 128 Facts₀.iota_S256x128_d1_w32 Facts₀.broadcasts_S256x1_S256x128 8192 Facts₀.slices_S256x10000_o0_8192_S256x128 64
  refine List.forall_mem_cons.2 ⟨fun x => ?_, ?_⟩
  · tile_case 128 Facts₀.iota_S256x128_d1_w32 Facts₀.broadcasts_S256x1_S256x128 8064 Facts₀.slices_S256x10000_o0_8064_S256x128 63
  refine List.forall_mem_cons.2 ⟨fun x => ?_, ?_⟩
  · tile_case 128 Facts₀.iota_S256x128_d1_w32 Facts₀.broadcasts_S256x1_S256x128 7936 Facts₀.slices_S256x10000_o0_7936_S256x128 62
  refine List.forall_mem_cons.2 ⟨fun x => ?_, ?_⟩
  · tile_case 128 Facts₀.iota_S256x128_d1_w32 Facts₀.broadcasts_S256x1_S256x128 7808 Facts₀.slices_S256x10000_o0_7808_S256x128 61
  refine List.forall_mem_cons.2 ⟨fun x => ?_, ?_⟩
  · tile_case 128 Facts₀.iota_S256x128_d1_w32 Facts₀.broadcasts_S256x1_S256x128 7680 Facts₀.slices_S256x10000_o0_7680_S256x128 60
  refine List.forall_mem_cons.2 ⟨fun x => ?_, ?_⟩
  · tile_case 128 Facts₀.iota_S256x128_d1_w32 Facts₀.broadcasts_S256x1_S256x128 7552 Facts₀.slices_S256x10000_o0_7552_S256x128 59
  refine List.forall_mem_cons.2 ⟨fun x => ?_, ?_⟩
  · tile_case 128 Facts₀.iota_S256x128_d1_w32 Facts₀.broadcasts_S256x1_S256x128 7424 Facts₀.slices_S256x10000_o0_7424_S256x128 58
  refine List.forall_mem_cons.2 ⟨fun x => ?_, ?_⟩
  · tile_case 128 Facts₀.iota_S256x128_d1_w32 Facts₀.broadcasts_S256x1_S256x128 7296 Facts₀.slices_S256x10000_o0_7296_S256x128 57
  refine List.forall_mem_cons.2 ⟨fun x => ?_, ?_⟩
  · tile_case 128 Facts₀.iota_S256x128_d1_w32 Facts₀.broadcasts_S256x1_S256x128 7168 Facts₀.slices_S256x10000_o0_7168_S256x128 56
  refine List.forall_mem_cons.2 ⟨fun x => ?_, ?_⟩
  · tile_case 128 Facts₀.iota_S256x128_d1_w32 Facts₀.broadcasts_S256x1_S256x128 7040 Facts₀.slices_S256x10000_o0_7040_S256x128 55
  refine List.forall_mem_cons.2 ⟨fun x => ?_, ?_⟩
  · tile_case 128 Facts₀.iota_S256x128_d1_w32 Facts₀.broadcasts_S256x1_S256x128 6912 Facts₀.slices_S256x10000_o0_6912_S256x128 54
  refine List.forall_mem_cons.2 ⟨fun x => ?_, ?_⟩
  · tile_case 128 Facts₀.iota_S256x128_d1_w32 Facts₀.broadcasts_S256x1_S256x128 6784 Facts₀.slices_S256x10000_o0_6784_S256x128 53
  refine List.forall_mem_cons.2 ⟨fun x => ?_, ?_⟩
  · tile_case 128 Facts₀.iota_S256x128_d1_w32 Facts₀.broadcasts_S256x1_S256x128 6656 Facts₀.slices_S256x10000_o0_6656_S256x128 52
  refine List.forall_mem_cons.2 ⟨fun x => ?_, ?_⟩
  · tile_case 128 Facts₀.iota_S256x128_d1_w32 Facts₀.broadcasts_S256x1_S256x128 6528 Facts₀.slices_S256x10000_o0_6528_S256x128 51
  refine List.forall_mem_cons.2 ⟨fun x => ?_, ?_⟩
  · tile_case 128 Facts₀.iota_S256x128_d1_w32 Facts₀.broadcasts_S256x1_S256x128 6400 Facts₀.slices_S256x10000_o0_6400_S256x128 50
  refine List.forall_mem_cons.2 ⟨fun x => ?_, ?_⟩
  · tile_case 128 Facts₀.iota_S256x128_d1_w32 Facts₀.broadcasts_S256x1_S256x128 6272 Facts₀.slices_S256x10000_o0_6272_S256x128 49
  refine List.forall_mem_cons.2 ⟨fun x => ?_, ?_⟩
  · tile_case 128 Facts₀.iota_S256x128_d1_w32 Facts₀.broadcasts_S256x1_S256x128 6144 Facts₀.slices_S256x10000_o0_6144_S256x128 48
  refine List.forall_mem_cons.2 ⟨fun x => ?_, ?_⟩
  · tile_case 128 Facts₀.iota_S256x128_d1_w32 Facts₀.broadcasts_S256x1_S256x128 6016 Facts₀.slices_S256x10000_o0_6016_S256x128 47
  refine List.forall_mem_cons.2 ⟨fun x => ?_, ?_⟩
  · tile_case 128 Facts₀.iota_S256x128_d1_w32 Facts₀.broadcasts_S256x1_S256x128 5888 Facts₀.slices_S256x10000_o0_5888_S256x128 46
  refine List.forall_mem_cons.2 ⟨fun x => ?_, ?_⟩
  · tile_case 128 Facts₀.iota_S256x128_d1_w32 Facts₀.broadcasts_S256x1_S256x128 5760 Facts₀.slices_S256x10000_o0_5760_S256x128 45
  refine List.forall_mem_cons.2 ⟨fun x => ?_, ?_⟩
  · tile_case 128 Facts₀.iota_S256x128_d1_w32 Facts₀.broadcasts_S256x1_S256x128 5632 Facts₀.slices_S256x10000_o0_5632_S256x128 44
  refine List.forall_mem_cons.2 ⟨fun x => ?_, ?_⟩
  · tile_case 128 Facts₀.iota_S256x128_d1_w32 Facts₀.broadcasts_S256x1_S256x128 5504 Facts₀.slices_S256x10000_o0_5504_S256x128 43
  refine List.forall_mem_cons.2 ⟨fun x => ?_, ?_⟩
  · tile_case 128 Facts₀.iota_S256x128_d1_w32 Facts₀.broadcasts_S256x1_S256x128 5376 Facts₀.slices_S256x10000_o0_5376_S256x128 42
  refine List.forall_mem_cons.2 ⟨fun x => ?_, ?_⟩
  · tile_case 128 Facts₀.iota_S256x128_d1_w32 Facts₀.broadcasts_S256x1_S256x128 5248 Facts₀.slices_S256x10000_o0_5248_S256x128 41
  refine List.forall_mem_cons.2 ⟨fun x => ?_, ?_⟩
  · tile_case 128 Facts₀.iota_S256x128_d1_w32 Facts₀.broadcasts_S256x1_S256x128 5120 Facts₀.slices_S256x10000_o0_5120_S256x128 40
  refine List.forall_mem_cons.2 ⟨fun x => ?_, ?_⟩
  · tile_case 128 Facts₀.iota_S256x128_d1_w32 Facts₀.broadcasts_S256x1_S256x128 4992 Facts₀.slices_S256x10000_o0_4992_S256x128 39
  refine List.forall_mem_cons.2 ⟨fun x => ?_, ?_⟩
  · tile_case 128 Facts₀.iota_S256x128_d1_w32 Facts₀.broadcasts_S256x1_S256x128 4864 Facts₀.slices_S256x10000_o0_4864_S256x128 38
  refine List.forall_mem_cons.2 ⟨fun x => ?_, ?_⟩
  · tile_case 128 Facts₀.iota_S256x128_d1_w32 Facts₀.broadcasts_S256x1_S256x128 4736 Facts₀.slices_S256x10000_o0_4736_S256x128 37
  refine List.forall_mem_cons.2 ⟨fun x => ?_, ?_⟩
  · tile_case 128 Facts₀.iota_S256x128_d1_w32 Facts₀.broadcasts_S256x1_S256x128 4608 Facts₀.slices_S256x10000_o0_4608_S256x128 36
  refine List.forall_mem_cons.2 ⟨fun x => ?_, ?_⟩
  · tile_case 128 Facts₀.iota_S256x128_d1_w32 Facts₀.broadcasts_S256x1_S256x128 4480 Facts₀.slices_S256x10000_o0_4480_S256x128 35
  refine List.forall_mem_cons.2 ⟨fun x => ?_, ?_⟩
  · tile_case 128 Facts₀.iota_S256x128_d1_w32 Facts₀.broadcasts_S256x1_S256x128 4352 Facts₀.slices_S256x10000_o0_4352_S256x128 34
  refine List.forall_mem_cons.2 ⟨fun x => ?_, ?_⟩
  · tile_case 128 Facts₀.iota_S256x128_d1_w32 Facts₀.broadcasts_S256x1_S256x128 4224 Facts₀.slices_S256x10000_o0_4224_S256x128 33
  refine List.forall_mem_cons.2 ⟨fun x => ?_, ?_⟩
  · tile_case 128 Facts₀.iota_S256x128_d1_w32 Facts₀.broadcasts_S256x1_S256x128 4096 Facts₀.slices_S256x10000_o0_4096_S256x128 32
  refine List.forall_mem_cons.2 ⟨fun x => ?_, ?_⟩
  · tile_case 128 Facts₀.iota_S256x128_d1_w32 Facts₀.broadcasts_S256x1_S256x128 3968 Facts₀.slices_S256x10000_o0_3968_S256x128 31
  refine List.forall_mem_cons.2 ⟨fun x => ?_, ?_⟩
  · tile_case 128 Facts₀.iota_S256x128_d1_w32 Facts₀.broadcasts_S256x1_S256x128 3840 Facts₀.slices_S256x10000_o0_3840_S256x128 30
  refine List.forall_mem_cons.2 ⟨fun x => ?_, ?_⟩
  · tile_case 128 Facts₀.iota_S256x128_d1_w32 Facts₀.broadcasts_S256x1_S256x128 3712 Facts₀.slices_S256x10000_o0_3712_S256x128 29
  refine List.forall_mem_cons.2 ⟨fun x => ?_, ?_⟩
  · tile_case 128 Facts₀.iota_S256x128_d1_w32 Facts₀.broadcasts_S256x1_S256x128 3584 Facts₀.slices_S256x10000_o0_3584_S256x128 28
  refine List.forall_mem_cons.2 ⟨fun x => ?_, ?_⟩
  · tile_case 128 Facts₀.iota_S256x128_d1_w32 Facts₀.broadcasts_S256x1_S256x128 3456 Facts₀.slices_S256x10000_o0_3456_S256x128 27
  refine List.forall_mem_cons.2 ⟨fun x => ?_, ?_⟩
  · tile_case 128 Facts₀.iota_S256x128_d1_w32 Facts₀.broadcasts_S256x1_S256x128 3328 Facts₀.slices_S256x10000_o0_3328_S256x128 26
  refine List.forall_mem_cons.2 ⟨fun x => ?_, ?_⟩
  · tile_case 128 Facts₀.iota_S256x128_d1_w32 Facts₀.broadcasts_S256x1_S256x128 3200 Facts₀.slices_S256x10000_o0_3200_S256x128 25
  refine List.forall_mem_cons.2 ⟨fun x => ?_, ?_⟩
  · tile_case 128 Facts₀.iota_S256x128_d1_w32 Facts₀.broadcasts_S256x1_S256x128 3072 Facts₀.slices_S256x10000_o0_3072_S256x128 24
  refine List.forall_mem_cons.2 ⟨fun x => ?_, ?_⟩
  · tile_case 128 Facts₀.iota_S256x128_d1_w32 Facts₀.broadcasts_S256x1_S256x128 2944 Facts₀.slices_S256x10000_o0_2944_S256x128 23
  refine List.forall_mem_cons.2 ⟨fun x => ?_, ?_⟩
  · tile_case 128 Facts₀.iota_S256x128_d1_w32 Facts₀.broadcasts_S256x1_S256x128 2816 Facts₀.slices_S256x10000_o0_2816_S256x128 22
  refine List.forall_mem_cons.2 ⟨fun x => ?_, ?_⟩
  · tile_case 128 Facts₀.iota_S256x128_d1_w32 Facts₀.broadcasts_S256x1_S256x128 2688 Facts₀.slices_S256x10000_o0_2688_S256x128 21
  refine List.forall_mem_cons.2 ⟨fun x => ?_, ?_⟩
  · tile_case 128 Facts₀.iota_S256x128_d1_w32 Facts₀.broadcasts_S256x1_S256x128 2560 Facts₀.slices_S256x10000_o0_2560_S256x128 20
  refine List.forall_mem_cons.2 ⟨fun x => ?_, ?_⟩
  · tile_case 128 Facts₀.iota_S256x128_d1_w32 Facts₀.broadcasts_S256x1_S256x128 2432 Facts₀.slices_S256x10000_o0_2432_S256x128 19
  refine List.forall_mem_cons.2 ⟨fun x => ?_, ?_⟩
  · tile_case 128 Facts₀.iota_S256x128_d1_w32 Facts₀.broadcasts_S256x1_S256x128 2304 Facts₀.slices_S256x10000_o0_2304_S256x128 18
  refine List.forall_mem_cons.2 ⟨fun x => ?_, ?_⟩
  · tile_case 128 Facts₀.iota_S256x128_d1_w32 Facts₀.broadcasts_S256x1_S256x128 2176 Facts₀.slices_S256x10000_o0_2176_S256x128 17
  refine List.forall_mem_cons.2 ⟨fun x => ?_, ?_⟩
  · tile_case 128 Facts₀.iota_S256x128_d1_w32 Facts₀.broadcasts_S256x1_S256x128 2048 Facts₀.slices_S256x10000_o0_2048_S256x128 16
  refine List.forall_mem_cons.2 ⟨fun x => ?_, ?_⟩
  · tile_case 128 Facts₀.iota_S256x128_d1_w32 Facts₀.broadcasts_S256x1_S256x128 1920 Facts₀.slices_S256x10000_o0_1920_S256x128 15
  refine List.forall_mem_cons.2 ⟨fun x => ?_, ?_⟩
  · tile_case 128 Facts₀.iota_S256x128_d1_w32 Facts₀.broadcasts_S256x1_S256x128 1792 Facts₀.slices_S256x10000_o0_1792_S256x128 14
  refine List.forall_mem_cons.2 ⟨fun x => ?_, ?_⟩
  · tile_case 128 Facts₀.iota_S256x128_d1_w32 Facts₀.broadcasts_S256x1_S256x128 1664 Facts₀.slices_S256x10000_o0_1664_S256x128 13
  refine List.forall_mem_cons.2 ⟨fun x => ?_, ?_⟩
  · tile_case 128 Facts₀.iota_S256x128_d1_w32 Facts₀.broadcasts_S256x1_S256x128 1536 Facts₀.slices_S256x10000_o0_1536_S256x128 12
  refine List.forall_mem_cons.2 ⟨fun x => ?_, ?_⟩
  · tile_case 128 Facts₀.iota_S256x128_d1_w32 Facts₀.broadcasts_S256x1_S256x128 1408 Facts₀.slices_S256x10000_o0_1408_S256x128 11
  refine List.forall_mem_cons.2 ⟨fun x => ?_, ?_⟩
  · tile_case 128 Facts₀.iota_S256x128_d1_w32 Facts₀.broadcasts_S256x1_S256x128 1280 Facts₀.slices_S256x10000_o0_1280_S256x128 10
  refine List.forall_mem_cons.2 ⟨fun x => ?_, ?_⟩
  · tile_case 128 Facts₀.iota_S256x128_d1_w32 Facts₀.broadcasts_S256x1_S256x128 1152 Facts₀.slices_S256x10000_o0_1152_S256x128 9
  refine List.forall_mem_cons.2 ⟨fun x => ?_, ?_⟩
  · tile_case 128 Facts₀.iota_S256x128_d1_w32 Facts₀.broadcasts_S256x1_S256x128 1024 Facts₀.slices_S256x10000_o0_1024_S256x128 8
  refine List.forall_mem_cons.2 ⟨fun x => ?_, ?_⟩
  · tile_case 128 Facts₀.iota_S256x128_d1_w32 Facts₀.broadcasts_S256x1_S256x128 896 Facts₀.slices_S256x10000_o0_896_S256x128 7
  refine List.forall_mem_cons.2 ⟨fun x => ?_, ?_⟩
  · tile_case 128 Facts₀.iota_S256x128_d1_w32 Facts₀.broadcasts_S256x1_S256x128 768 Facts₀.slices_S256x10000_o0_768_S256x128 6
  refine List.forall_mem_cons.2 ⟨fun x => ?_, ?_⟩
  · tile_case 128 Facts₀.iota_S256x128_d1_w32 Facts₀.broadcasts_S256x1_S256x128 640 Facts₀.slices_S256x10000_o0_640_S256x128 5
  refine List.forall_mem_cons.2 ⟨fun x => ?_, ?_⟩
  · tile_case 128 Facts₀.iota_S256x128_d1_w32 Facts₀.broadcasts_S256x1_S256x128 512 Facts₀.slices_S256x10000_o0_512_S256x128 4
  refine List.forall_mem_cons.2 ⟨fun x => ?_, ?_⟩
  · tile_case 128 Facts₀.iota_S256x128_d1_w32 Facts₀.broadcasts_S256x1_S256x128 384 Facts₀.slices_S256x10000_o0_384_S256x128 3
  refine List.forall_mem_cons.2 ⟨fun x => ?_, ?_⟩
  · tile_case 128 Facts₀.iota_S256x128_d1_w32 Facts₀.broadcasts_S256x1_S256x128 256 Facts₀.slices_S256x10000_o0_256_S256x128 2
  refine List.forall_mem_cons.2 ⟨fun x => ?_, ?_⟩
  · tile_case 128 Facts₀.iota_S256x128_d1_w32 Facts₀.broadcasts_S256x1_S256x128 128 Facts₀.slices_S256x10000_o0_128_S256x128 1
  refine List.forall_mem_cons.2 ⟨fun x => ?_, ?_⟩
  · tile_case 128 Facts₀.iota_S256x128_d1_w32 Facts₀.broadcasts_S256x1_S256x128 0 Facts₀.slices_S256x10000_o0_0_S256x128 0
  exact fun _ hp => absurd hp List.not_mem_nil

/-- The output block after the body, at an index: the specification's value of that row and column. -/
theorem block_value (c : Dev nD) (i : grid0.Coords) (arg1 : Memref sig .tc .vmem S256x10000 .f32) (harg1 : arg1.IsWhole)
    (arg2 : Memref sig .tc .vmem S256x128 .i32) (harg2 : arg2.IsWhole) (arg3 : Memref sig .tc .vmem S256x10000 .f32)
    (harg3 : arg3.IsWhole) (x0 : Vec Ideal S256x10000 .f32) (x1 : Vec Ideal S256x128 .i32)
    (hx1 : ∀ k, 0 ≤ (x1 k).toInt) (y : S256x10000.Idx) :
    Cert.KernelIdeal.Gen.out0_A_2 (F := Ideal) c i arg1 harg1 arg2 harg2 arg3 harg3 x0 x1 y
      = Cert.Moves.outVal (x0 y) (fun k : Fin 128 => x1 (ValueIdx.ix2 (y 0) k)) (y 1).val := by
  unfold Cert.KernelIdeal.Gen.out0_A_2
  exact View.read_writes_apply_of_pieces _ _ (blockG x0 x1) _
    (pieces_agree c i arg1 harg1 arg2 harg2 arg3 harg3 x0 x1 hx1) y
    (cover0_A_2 c i arg1 harg1 arg2 harg2 arg3 harg3 x0 x1 y)

end Cert.Moves

end
-- ==== Proof.MovesArray.lean ====
/-
  From the blocks to the whole array.

  The grid has 16 points. Point `t` reads rows `256 t … 256 t + 255` of the two argument arrays (all 10000 columns of
  the float array, all 128 moves of the integer array) and writes the same rows of the result. Inside a block the
  entry at row `r`, column `j` is the specification's value of the float entry there and of that row's 128 moves;
  a block's row `r` is the array's row `256 t + r`, so the entry is the array-level value at `(256 t + r, j)`.
  Row `R` of the result is written by point `R / 256`, so the blocks cover the array and the result IS the
  array-level function.
-/
import proofs.«416086_j90056874262977_2_alg».proof.Proof.Gen.KernelIdeal.Value
import proofs.«416086_j90056874262977_2_alg».proof.Proof.MovesSpec
import proofs.«416086_j90056874262977_2_alg».proof.Proof.MovesBlock
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.ArrValue

open Cert.KernelIdeal Cert.KernelIdeal.Gen

variable (m : (ℓ : Loc nD τ sig) → Buf (Elt Ideal) ℓ) (ρ : Dev nD → PrngReg)

/-- The float argument array as the region finds it. -/
abbrev xarr (c : Dev nD) : Vec Ideal S4096x10000 .f32 := Gen.V m c main_arg0
/-- The integer argument array (the moves) as the region finds it. -/
abbrev pmarr (c : Dev nD) : IVec S4096x128 32 := Gen.V m c main_arg1
/-- The float array's block at point `t`. -/
abbrev xblk (c : Dev nD) (t : Fin cfg0.N) : Vec Ideal S256x10000 .f32 := Gen.iblk m c 0 t
/-- The moves' block at point `t`. -/
abbrev pmblk (c : Dev nD) (t : Fin cfg0.N) : IVec S256x128 32 := Gen.iblk m c 1 t

/-- The result array as one function of the two argument arrays: at row `R`, column `j`, the specification's value of
    the float entry there and of row `R`'s 128 moves. -/
def G (c : Dev nD) : S4096x10000.Idx → EReal :=
  fun y => Cert.Moves.outVal (xarr m c y) (fun k : Fin 128 => pmarr m c (ValueIdx.ix2 (y 0) k)) (y 1).val

/-- The printed index maps, decided over the 16 points: at point `t` every window's block index is `(t, 0)`. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- An entry of the float block at point `t` is the array's entry `256 t` rows further down, same column. -/
theorem xblk_apply (c : Dev nD) (t : Fin cfg0.N) (y : S256x10000.Idx) (i : S4096x10000.Idx)
    (h0 : (i 0).val = 256 * t.val + (y 0).val) (h1 : (i 1).val = (y 1).val) :
    xblk m c t y = xarr m c i := by
  obtain ⟨e0, e1, -, -, -, -⟩ := idx_rows t
  show Gen.iblk m c 0 t y = Gen.V m c main_arg0 i
  unfold Gen.iblk
  rw [View.read_apply]
  show Gen.V m c main_arg0 _ = Gen.V m c main_arg0 i
  congr 1
  funext a
  apply Fin.ext
  match a with
  | ⟨0, _⟩ => show win0_0.index t (0 : Fin 2) * 256 + 1 * (y 0).val = (i 0).val; rw [e0, h0]; omega
  | ⟨1, _⟩ => show win0_0.index t (1 : Fin 2) * 10000 + 1 * (y 1).val = (i 1).val; rw [e1, h1]; omega

/-- An entry of the moves' block at point `t` is the array's entry `256 t` rows further down, same move number. -/
theorem pmblk_apply (c : Dev nD) (t : Fin cfg0.N) (y : S256x128.Idx) (i : S4096x128.Idx)
    (h0 : (i 0).val = 256 * t.val + (y 0).val) (h1 : (i 1).val = (y 1).val) :
    pmblk m c t y = pmarr m c i := by
  obtain ⟨-, -, e0, e1, -, -⟩ := idx_rows t
  show Gen.iblk m c 1 t y = Gen.V m c main_arg1 i
  unfold Gen.iblk
  rw [View.read_apply]
  show Gen.V m c main_arg1 _ = Gen.V m c main_arg1 i
  congr 1
  funext a
  apply Fin.ext
  match a with
  | ⟨0, _⟩ => show win0_1.index t (0 : Fin 2) * 256 + 1 * (y 0).val = (i 0).val; rw [e0, h0]; omega
  | ⟨1, _⟩ => show win0_1.index t (1 : Fin 2) * 128 + 1 * (y 1).val = (i 1).val; rw [e1, h1]; omega

/-- The entry the body leaves at `y` of the result's block at point `t` is the array-level value at the array index
    `i` that sits `256 t` rows below `y`, same column: the block's float entry and its row of moves are the
    arrays' there, and a block of nonnegative moves is a block of the nonnegative array. -/
theorem block_entry (c : Dev nD) (hpm : ∀ k, 0 ≤ (pmarr m c k).toInt) (t : Fin cfg0.N) (y : S256x10000.Idx)
    (i : S4096x10000.Idx) (h0 : (i 0).val = 256 * t.val + (y 0).val) (h1 : (i 1).val = (y 1).val) :
    out0_A_2 (F := Ideal) c (grid0.coords t) (ms0_0 t) (hs0_0 t) (ms0_1 t) (hs0_1 t) (ms0_2 t) (hs0_2 t)
      (xblk m c t) (pmblk m c t) y = G m c i := by
  have hrow : ∀ k : Fin 128, pmblk m c t (ValueIdx.ix2 (y 0) k) = pmarr m c (ValueIdx.ix2 (i 0) k) :=
    fun k => pmblk_apply m c t (ValueIdx.ix2 (y 0) k) (ValueIdx.ix2 (i 0) k) h0 rfl
  have hnn : ∀ k : S256x128.Idx, 0 ≤ (pmblk m c t k).toInt := fun k => by
    have hN : cfg0.N = 16 := N_0
    have ht : t.val < 16 := by have := t.isLt; omega
    have hk0 : (k 0).val < 256 := (k 0).isLt
    rw [pmblk_apply m c t k (ValueIdx.ix2 (⟨256 * t.val + (k 0).val, by omega⟩ : Fin 4096) (k 1)) rfl rfl]
    exact hpm _
  refine (Cert.Moves.block_value c (grid0.coords t) (ms0_0 t) (hs0_0 t) (ms0_1 t) (hs0_1 t) (ms0_2 t) (hs0_2 t)
    (xblk m c t) (pmblk m c t) hnn y).trans ?_
  unfold G
  rw [xblk_apply m c t y i h0 h1, funext hrow, h1]

/-- WHAT POINT `t` WRITES BACK is block `t` of the array-level function. -/
theorem flushed_eq (c : Dev nD) (hpm : ∀ k, 0 ≤ (pmarr m c k).toInt) (t : Fin cfg0.N) :
    (dats m 0 c).flushed 2 t = ((cfg0.win 2).blk t).view.read (Elt Ideal) (G m c) := by
  rw [Value.flushed2_A]
  obtain ⟨-, -, -, -, e0, e1⟩ := idx_rows t
  funext y
  rw [View.read_apply]
  refine block_entry m c hpm t y _ ?_ ?_
  · show win0_2.index t (0 : Fin 2) * 256 + 1 * (y 0).val = 256 * t.val + (y 0).val; rw [e0]; omega
  · show win0_2.index t (1 : Fin 2) * 10000 + 1 * (y 1).val = (y 1).val; rw [e1]; omega

/-- An index of the result array is in point `t`'s block iff each coordinate is in the block's range on its axis. -/
theorem mem_blk (t : Fin cfg0.N) (i : S4096x10000.Idx) :
    i ∈ ((cfg0.win 2).blk t).view.set ↔ ∀ a : Fin 2, win0_2.index t a * S256x10000.size a ≤ (i a).val ∧ (i a).val < win0_2.index t a * S256x10000.size a + S256x10000.size a := by
  show i ∈ ((View.whole main_v0).slice (win0_2.rect t)).set ↔ _
  rw [View.set_slice_whole, Rect.mem_set_unit]
  exact Iff.rfl

/-- Row `R` of the result is written by point `R / 256`: the blocks cover the array. -/
theorem cover (i : S4096x10000.Idx) :
    ∃ t : Fin cfg0.N, (cfg0.win 2).flush t = true ∧ i ∈ ((cfg0.win 2).blk t).view.set := by
  have hN : cfg0.N = 16 := N_0
  have hi0 : (i 0).val < 4096 := (i 0).isLt
  have hi1 : (i 1).val < 10000 := (i 1).isLt
  have hlt : (i 0).val / 256 < cfg0.N := by rw [hN]; omega
  obtain ⟨-, -, -, -, e0, e1⟩ := idx_rows ⟨(i 0).val / 256, hlt⟩
  refine ⟨⟨(i 0).val / 256, hlt⟩, flush0_2 _, ?_⟩
  rw [mem_blk]
  intro a
  match a with
  | ⟨0, _⟩ =>
    show win0_2.index ⟨(i 0).val / 256, hlt⟩ (0 : Fin 2) * 256 ≤ (i 0).val ∧ (i 0).val < win0_2.index ⟨(i 0).val / 256, hlt⟩ (0 : Fin 2) * 256 + 256
    rw [e0]; show (i 0).val / 256 * 256 ≤ (i 0).val ∧ (i 0).val < (i 0).val / 256 * 256 + 256; omega
  | ⟨1, _⟩ =>
    show win0_2.index ⟨(i 0).val / 256, hlt⟩ (1 : Fin 2) * 10000 ≤ (i 1).val ∧ (i 1).val < win0_2.index ⟨(i 0).val / 256, hlt⟩ (1 : Fin 2) * 10000 + 10000
    rw [e1]; omega

/-- THE ARRAY after the run is the array-level function of the two argument arrays. -/
theorem final (c : Dev nD) (hpm : ∀ k, 0 ≤ (pmarr m c k).toInt) : (Gen.dats m 0 c).arrAt 2 cfg0.N = G m c :=
  (dats m 0 c).arrAt_eq_of_cover 2 (G m c) (fun t _ => flushed_eq m c hpm t) cover

/-- The run, read: the result array at the array-level function, the two arguments unchanged. -/
theorem run (hpm : ∀ c k, 0 ≤ (pmarr m c k).toInt) :
    θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c (hpm c)), (h c).2⟩)
    (Value.run_blocks m ρ)

end Cert.KernelIdeal.ArrValue

end
-- ==== Proof.lean ====
/-
  Read at the extended reals, both programs leave at row `R`, column `j` the float entry there times one or zero
  according to whether row `R` lists the move `j`, a zero product replaced by minus infinity. The precondition makes
  every listed move nonnegative, so the reference's table of ones is exactly the table of listed moves.
-/
import proofs.«416086_j90056874262977_2_alg».proof.Defs
import proofs.«416086_j90056874262977_2_alg».proof.Proof.Gen.Kernel
import proofs.«416086_j90056874262977_2_alg».proof.Proof.Gen.Kernel.Skeleton
import proofs.«416086_j90056874262977_2_alg».proof.Proof.Gen.Kernel.Launch
import proofs.«416086_j90056874262977_2_alg».proof.Proof.Gen.Kernel.Points
import proofs.«416086_j90056874262977_2_alg».proof.Proof.Gen.Kernel.Frame
import proofs.«416086_j90056874262977_2_alg».proof.Proof.Gen.KernelIdeal
import proofs.«416086_j90056874262977_2_alg».proof.Proof.Gen.KernelIdeal.Skeleton
import proofs.«416086_j90056874262977_2_alg».proof.Proof.Gen.KernelIdeal.Launch
import proofs.«416086_j90056874262977_2_alg».proof.Proof.Gen.KernelIdeal.Points
import proofs.«416086_j90056874262977_2_alg».proof.Proof.Gen.KernelIdeal.Frame
import proofs.«416086_j90056874262977_2_alg».proof.Proof.Gen.ReferenceIdeal
import proofs.«416086_j90056874262977_2_alg».proof.Proof.Gen.Pre_finite_inputs
import proofs.«416086_j90056874262977_2_alg».proof.Proof.Gen.ReferenceIdeal.Run
import proofs.«416086_j90056874262977_2_alg».proof.Proof.MovesPre
import proofs.«416086_j90056874262977_2_alg».proof.Proof.MovesRef
import proofs.«416086_j90056874262977_2_alg».proof.Proof.MovesArray
import Idealize.ShloMosaic.Adequacy
import Idealize.ShloMosaic.Init

noncomputable section

namespace Cert.Proof

open Idealize.ShloMosaic Idealize.SL.Sem Idealize.ShloMosaic.ValueIdx Cert.Kernel

/-- The kernel as printed runs and leaves its arguments as they were. -/
theorem frame_k : Cert.frame_Kernel := fun m ρ _ => Cert.Kernel.Gen.frame m ρ

/-- So does the kernel read at the extended reals. -/
theorem frame_ki : Cert.frame_KernelIdeal := fun m ρ _ => Cert.KernelIdeal.Gen.frame m ρ

/-- So does the reference read at the extended reals. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Under the precondition every move is nonnegative, so the kernel's result array is the specification's value at
    every index, and so is the reference's: from arguments that agree the two results are one function. -/
theorem algebraic : Cert.algebraic_KernelIdeal_ReferenceIdeal := by
  intro m ρ m' ρ' hpre hagree
  have hpm : ∀ c k, 0 ≤ (Cert.KernelIdeal.ArrValue.pmarr m c k).toInt :=
    fun c k => Cert.Moves.moves_nonneg _ _ (hpre c) k
  refine ⟨fun c => Cert.KernelIdeal.ArrValue.G m c, Cert.KernelIdeal.ArrValue.run m ρ hpm, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  funext y
  obtain ⟨R, j, rfl⟩ : ∃ (R : Fin 4096) (j : Fin 10000), y = ix2 R j := ⟨y 0, y 1, eq_ix2 y⟩
  exact Cert.Moves.refOut_apply _ _ (hpm c) R j

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
